-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16384x3 : Shape := ⟨3, ![2, 16384, 3]⟩
abbrev S2x8192x3 : Shape := ⟨3, ![2, 8192, 3]⟩
abbrev S2x16384 : Shape := ⟨2, ![2, 16384]⟩
abbrev S_ : Shape := ⟨0, ![]⟩

class Facts : Prop where
  bcast_S_S2x16384x3 : S_.BroadcastsInDim S2x16384x3 (![] : Fin 0 → Fin S2x16384x3.rank)
  reducesTo_S2x16384x3_S_d0_1_2 : S2x16384x3.ReducesTo [0, 1, 2] S_
  h_S_ : 0 < S_.numel
  bcast_S_S2x8192x3 : S_.BroadcastsInDim S2x8192x3 (![] : Fin 0 → Fin S2x8192x3.rank)
  reducesTo_S2x8192x3_S_d0_1_2 : S2x8192x3.ReducesTo [0, 1, 2] S_
  bcast_S_S2x16384 : S_.BroadcastsInDim S2x16384 (![] : Fin 0 → Fin S2x16384.rank)
  reducesTo_S2x16384_S_d0_1 : S2x16384.ReducesTo [0, 1] S_

variable [Facts]

def fn {F : FTy → Type} [FloatOps F] (main_arg0 : FVec F S2x16384x3 .f32) (main_arg1 : FVec F S2x8192x3 .f32) (main_arg2 : FVec F S2x16384 .f32) : IVec S_ 1 :=
  let main_v0 : FVec F S2x16384x3 .f32 := Host.absf main_arg0
  let main_cst : FVec F S_ .f32 := constant S_ .f32 0x7F800000#32
  let main_v1 : FVec F S2x16384x3 .f32 := broadcastInDim S2x16384x3 ![] bcast_S_S2x16384x3 main_cst
  let main_v2 : IVec S2x16384x3 1 := cmpf .olt main_v0 main_v1
  let main_c : IVec S_ 1 := constantI S_ 1 1#1
  let main_v3 : IVec S_ 1 := (fun x v => Host.reduce IntOp.andi x v reducesTo_S2x16384x3_S_d0_1_2 h_S_) main_v2 main_c
  let main_v4 : FVec F S2x8192x3 .f32 := Host.absf main_arg1
  let main_cst_0 : FVec F S_ .f32 := constant S_ .f32 0x7F800000#32
  let main_v5 : FVec F S2x8192x3 .f32 := broadcastInDim S2x8192x3 ![] bcast_S_S2x8192x3 main_cst_0
  let main_v6 : IVec S2x8192x3 1 := cmpf .olt main_v4 main_v5
  let main_c_1 : IVec S_ 1 := constantI S_ 1 1#1
  let main_v7 : IVec S_ 1 := (fun x v => Host.reduce IntOp.andi x v reducesTo_S2x8192x3_S_d0_1_2 h_S_) main_v6 main_c_1
  let main_v8 : IVec S_ 1 := andi main_v3 main_v7
  let main_v9 : FVec F S2x16384 .f32 := Host.absf main_arg2
  let main_cst_2 : FVec F S_ .f32 := constant S_ .f32 0x7F800000#32
  let main_v10 : FVec F S2x16384 .f32 := broadcastInDim S2x16384 ![] bcast_S_S2x16384 main_cst_2
  let main_v11 : IVec S2x16384 1 := cmpf .olt main_v9 main_v10
  let main_c_3 : IVec S_ 1 := constantI S_ 1 1#1
  let main_v12 : IVec S_ 1 := (fun x v => Host.reduce IntOp.andi x v reducesTo_S2x16384_S_d0_1 h_S_) main_v11 main_c_3
  let main_v13 : IVec S_ 1 := andi main_v8 main_v12
  main_v13
-- ==== Kernel.lean ====
abbrev S2x16384x3 : Shape := ⟨3, ![2, 16384, 3]⟩
abbrev S2x8192x3 : Shape := ⟨3, ![2, 8192, 3]⟩
abbrev S2x16384 : Shape := ⟨2, ![2, 16384]⟩
abbrev S_ : Shape := ⟨0, ![]⟩
abbrev S2x8192 : Shape := ⟨2, ![2, 8192]⟩
abbrev S2x1x8192 : Shape := ⟨3, ![2, 1, 8192]⟩
abbrev S2x1x16384 : Shape := ⟨3, ![2, 1, 16384]⟩
abbrev S1x256x3 : Shape := ⟨3, ![1, 256, 3]⟩
abbrev S1x8192x3 : Shape := ⟨3, ![1, 8192, 3]⟩
abbrev S1x1x8192 : Shape := ⟨3, ![1, 1, 8192]⟩
abbrev S1x1x256 : Shape := ⟨3, ![1, 1, 256]⟩
abbrev S1x8192 : Shape := ⟨2, ![1, 8192]⟩
abbrev S256x3 : Shape := ⟨2, ![256, 3]⟩
abbrev S8192x3 : Shape := ⟨2, ![8192, 3]⟩
abbrev S256 : Shape := ⟨1, ![256]⟩
abbrev S256x1 : Shape := ⟨2, ![256, 1]⟩
abbrev S256x8192 : Shape := ⟨2, ![256, 8192]⟩
abbrev S1x256 : Shape := ⟨2, ![1, 256]⟩
abbrev S8192 : Shape := ⟨1, ![8192]⟩
abbrev S2 : Shape := ⟨1, ![2]⟩
abbrev S2x1 : Shape := ⟨2, ![2, 1]⟩

abbrev nBuf : Space → Nat
  | .hbm => 38
  | .vmem => 11
  | .smem => 0
  | _ => 0

abbrev bufTy : (tb : Table) → Fin (tcTables nBuf tb) → BufTy
  | .hbm, ⟨0, _⟩ => ⟨S2x16384x3, .f32⟩
  | .hbm, ⟨1, _⟩ => ⟨S2x8192x3, .f32⟩
  | .hbm, ⟨2, _⟩ => ⟨S2x16384, .f32⟩
  | .hbm, ⟨3, _⟩ => ⟨S2x8192x3, .f32⟩
  | .hbm, ⟨4, _⟩ => ⟨S_, .f32⟩
  | .hbm, ⟨5, _⟩ => ⟨S2x8192, .f32⟩
  | .hbm, ⟨6, _⟩ => ⟨S2x1x8192, .f32⟩
  | .hbm, ⟨7, _⟩ => ⟨S2x1x16384, .f32⟩
  | .hbm, ⟨8, _⟩ => ⟨S2x1x8192, .f32⟩
  | .hbm, ⟨9, _⟩ => ⟨S2x16384, .f32⟩
  | .hbm, ⟨10, _⟩ => ⟨S2x8192, .f32⟩
  | .hbm, ⟨11, _⟩ => ⟨S_, .f32⟩
  | .hbm, ⟨12, _⟩ => ⟨S2, .f32⟩
  | .hbm, ⟨13, _⟩ => ⟨S_, .f32⟩
  | .hbm, ⟨14, _⟩ => ⟨S2, .f32⟩
  | .hbm, ⟨15, _⟩ => ⟨S2, .f32⟩
  | .hbm, ⟨16, _⟩ => ⟨S2x1, .f32⟩
  | .hbm, ⟨17, _⟩ => ⟨S2x16384, .f32⟩
  | .hbm, ⟨18, _⟩ => ⟨S2x16384, .f32⟩
  | .hbm, ⟨19, _⟩ => ⟨S2x16384, .f32⟩
  | .hbm, ⟨20, _⟩ => ⟨S_, .f32⟩
  | .hbm, ⟨21, _⟩ => ⟨S2, .f32⟩
  | .hbm, ⟨22, _⟩ => ⟨S2x1, .f32⟩
  | .hbm, ⟨23, _⟩ => ⟨S2x16384, .f32⟩
  | .hbm, ⟨24, _⟩ => ⟨S2x16384, .f32⟩
  | .hbm, ⟨25, _⟩ => ⟨S2x16384, .f32⟩
  | .hbm, ⟨26, _⟩ => ⟨S_, .f32⟩
  | .hbm, ⟨27, _⟩ => ⟨S2, .f32⟩
  | .hbm, ⟨28, _⟩ => ⟨S_, .f32⟩
  | .hbm, ⟨29, _⟩ => ⟨S2, .f32⟩
  | .hbm, ⟨30, _⟩ => ⟨S_, .f32⟩
  | .hbm, ⟨31, _⟩ => ⟨S2, .f32⟩
  | .hbm, ⟨32, _⟩ => ⟨S2, .f32⟩
  | .hbm, ⟨33, _⟩ => ⟨S2, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S1x256x3, .f32⟩
  | .local _ .vmem, ⟨1, _⟩ => ⟨S1x256x3, .f32⟩
  | .local _ .vmem, ⟨2, _⟩ => ⟨S1x8192x3, .f32⟩
  | .local _ .vmem, ⟨3, _⟩ => ⟨S1x8192x3, .f32⟩
  | .local _ .vmem, ⟨4, _⟩ => ⟨S1x1x8192, .f32⟩
  | .local _ .vmem, ⟨5, _⟩ => ⟨S1x1x8192, .f32⟩
  | .local _ .vmem, ⟨6, _⟩ => ⟨S1x1x256, .f32⟩
  | .local _ .vmem, ⟨7, _⟩ => ⟨S1x1x256, .f32⟩
  | .local _ .vmem, ⟨8, _⟩ => ⟨S1x1x8192, .f32⟩
  | .local _ .vmem, ⟨9, _⟩ => ⟨S1x1x8192, .f32⟩
  | .local _ .vmem, ⟨10, _⟩ => ⟨S1x8192, .f32⟩
  | _, _ => ⟨S2x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S2x8192x3_S2x8192_d2 : S2x8192x3.ReducesTo [2] S2x8192
  h_S_ : 0 < S_.numel
  bcast_S2x8192_S2x1x8192_0_2 : S2x8192.BroadcastsInDim S2x1x8192 (![0, 2] : Fin 2 → Fin S2x1x8192.rank)
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x8192x3_S1x8192x3_0_0_0 : ∀ a, (![0, 0, 0] : Fin 3 → Nat) a + S1x8192x3.size a ≤ S1x8192x3.size a
  h_S1x8192x3 : 0 < S1x8192x3.numel
  shapeCasts_S1x8192x3_S8192x3 : S1x8192x3.ShapeCasts S8192x3
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  reduces_S256x3_S256 : S256x3.Reduces [1] S256
  shapeCasts_S256_S256x1 : S256.ShapeCasts S256x1
  bitsLt_bf16_f32 : FTy.bits .bf16 < FTy.bits .f32
  broadcasts_S256x1_S256x8192 : S256x1.Broadcasts S256x8192
  broadcasts_S1x8192_S256x8192 : S1x8192.Broadcasts S256x8192
  reduces_S256x8192_S256 : S256x8192.Reduces [1] S256
  transposes_S256x1_p1_0_S1x256 : S256x1.Transposes [1, 0] S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  reduces_S256x8192_S8192 : S256x8192.Reduces [0] S8192
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  shapeCasts_S1x8192_S1x1x8192 : S1x8192.ShapeCasts S1x1x8192
  shapeCasts_S2x1x16384_S2x16384 : S2x1x16384.ShapeCasts S2x16384
  shapeCasts_S2x1x8192_S2x8192 : S2x1x8192.ShapeCasts S2x8192
  reducesTo_S2x16384_S2_d1 : S2x16384.ReducesTo [1] S2
  bcast_S_S2 : S_.BroadcastsInDim S2 (![] : Fin 0 → Fin S2.rank)
  bcast_S2_S2x1_0 : S2.BroadcastsInDim S2x1 (![0] : Fin 1 → Fin S2x1.rank)
  bcast_S2x1_S2x16384_0_1 : S2x1.BroadcastsInDim S2x16384 (![0, 1] : Fin 2 → Fin S2x16384.rank)
  reducesTo_S2x8192_S2_d1 : S2x8192.ReducesTo [1] S2
  reducesTo_S2_S_d0 : S2.ReducesTo [0] S_
  dot_S256x3_S8192x3_S256x8192_1_1_0_0_n_n_wf : DotDims.WF S256x3 S8192x3 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S2x16384x3.size a
  hwx0_0 : ∀ i : grid0.Coords, EltTy.bits .f32 = 32 ∨ (Rect.block (s := S2x16384x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x3.size a ≤ S2x8192x3.size a
  hwx0_1 : ∀ i : grid0.Coords, EltTy.bits .f32 = 32 ∨ (Rect.block (s := S2x8192x3) S1x8192x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8192.size a ≤ S2x1x8192.size a
  hwx0_2 : ∀ i : grid0.Coords, EltTy.bits .f32 = 32 ∨ (Rect.block (s := S2x1x8192) S1x1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S2x1x16384.size a
  hwx0_3 : ∀ i : grid0.Coords, EltTy.bits .f32 = 32 ∨ (Rect.block (s := S2x1x16384) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x8192.size a ≤ S2x1x8192.size a
  hwx0_4 : ∀ i : grid0.Coords, EltTy.bits .f32 = 32 ∨ (Rect.block (s := S2x1x8192) S1x1x8192.size (cc0_transform_4 i) (hinb0_4 i)).WholeWords (EltTy.packing .f32)

variable [Facts₀]

def dot_S256x3_S8192x3_S256x8192_1_1_0_0_n_n : DotDims S256x3 S8192x3 S256x8192 where
  lhsContracting := [1]
  rhsContracting := [1]
  lhsNonContracting := [0]
  rhsNonContracting := [0]
  lhsBatch := []
  rhsBatch := []
  wf := dot_S256x3_S8192x3_S256x8192_1_1_0_0_n_n_wf

abbrev win0_0 : Pipeline.Window sig grid0 :=
  Pipeline.Window.ofSpec (Memref.whole main_arg0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x1x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16384x3 : Shape := ⟨3, ![2, 16384, 3]⟩
abbrev S2x8192x3 : Shape := ⟨3, ![2, 8192, 3]⟩
abbrev S2x16384 : Shape := ⟨2, ![2, 16384]⟩
abbrev S_ : Shape := ⟨0, ![]⟩
abbrev S2 : Shape := ⟨1, ![2]⟩
abbrev S2x1 : Shape := ⟨2, ![2, 1]⟩
abbrev S2x8192 : Shape := ⟨2, ![2, 8192]⟩
abbrev S2x16384x8192 : Shape := ⟨3, ![2, 16384, 8192]⟩
abbrev S2x16384x1 : Shape := ⟨3, ![2, 16384, 1]⟩
abbrev S2x1x8192 : Shape := ⟨3, ![2, 1, 8192]⟩

abbrev nBuf : Space → Nat
  | .hbm => 50
  | .vmem => 0
  | .smem => 0
  | _ => 0

abbrev bufTy : (tb : Table) → Fin (tcTables nBuf tb) → BufTy
  | .hbm, ⟨0, _⟩ => ⟨S2x16384x3, .f32⟩
  | .hbm, ⟨1, _⟩ => ⟨S2x8192x3, .f32⟩
  | .hbm, ⟨2, _⟩ => ⟨S2x16384, .f32⟩
  | .hbm, ⟨3, _⟩ => ⟨S_, .f32⟩
  | .hbm, ⟨4, _⟩ => ⟨S2, .f32⟩
  | .hbm, ⟨5, _⟩ => ⟨S_, .f32⟩
  | .hbm, ⟨6, _⟩ => ⟨S2, .f32⟩
  | .hbm, ⟨7, _⟩ => ⟨S2, .f32⟩
  | .hbm, ⟨8, _⟩ => ⟨S2x1, .f32⟩
  | .hbm, ⟨9, _⟩ => ⟨S2x16384, .f32⟩
  | .hbm, ⟨10, _⟩ => ⟨S2x16384, .f32⟩
  | .hbm, ⟨11, _⟩ => ⟨S2x16384, .f32⟩
  | .hbm, ⟨12, _⟩ => ⟨S_, .f32⟩
  | .hbm, ⟨13, _⟩ => ⟨S2, .f32⟩
  | .hbm, ⟨14, _⟩ => ⟨S2x1, .f32⟩
  | .hbm, ⟨15, _⟩ => ⟨S2x16384, .f32⟩
  | .hbm, ⟨16, _⟩ => ⟨S2x16384, .f32⟩
  | .hbm, ⟨17, _⟩ => ⟨S2x16384x3, .f32⟩
  | .hbm, ⟨18, _⟩ => ⟨S_, .f32⟩
  | .hbm, ⟨19, _⟩ => ⟨S2x16384, .f32⟩
  | .hbm, ⟨20, _⟩ => ⟨S2x8192x3, .f32⟩
  | .hbm, ⟨21, _⟩ => ⟨S_, .f32⟩
  | .hbm, ⟨22, _⟩ => ⟨S2x8192, .f32⟩
  | .hbm, ⟨23, _⟩ => ⟨S2x16384x8192, .f32⟩
  | .hbm, ⟨24, _⟩ => ⟨S2x16384x1, .f32⟩
  | .hbm, ⟨25, _⟩ => ⟨S2x1x8192, .f32⟩
  | .hbm, ⟨26, _⟩ => ⟨S2x16384x8192, .f32⟩
  | .hbm, ⟨27, _⟩ => ⟨S2x16384x8192, .f32⟩
  | .hbm, ⟨28, _⟩ => ⟨S2x16384x8192, .f32⟩
  | .hbm, ⟨29, _⟩ => ⟨S_, .f32⟩
  | .hbm, ⟨30, _⟩ => ⟨S2x16384x8192, .f32⟩
  | .hbm, ⟨31, _⟩ => ⟨S2x16384x8192, .f32⟩
  | .hbm, ⟨32, _⟩ => ⟨S2x16384x8192, .f32⟩
  | .hbm, ⟨33, _⟩ => ⟨S_, .f32⟩
  | .hbm, ⟨34, _⟩ => ⟨S2x16384, .f32⟩
  | .hbm, ⟨35, _⟩ => ⟨S_, .f32⟩
  | .hbm, ⟨36, _⟩ => ⟨S2x8192, .f32⟩
  | .hbm, ⟨37, _⟩ => ⟨S2x16384, .f32⟩
  | .hbm, ⟨38, _⟩ => ⟨S_, .f32⟩
  | .hbm, ⟨39, _⟩ => ⟨S2, .f32⟩
  | .hbm, ⟨40, _⟩ => ⟨S_, .f32⟩
  | .hbm, ⟨41, _⟩ => ⟨S2, .f32⟩
  | .hbm, ⟨42, _⟩ => ⟨S_, .f32⟩
  | .hbm, ⟨43, _⟩ => ⟨S2, .f32⟩
  | .hbm, ⟨44, _⟩ => ⟨S2, .f32⟩
  | .hbm, ⟨45, _⟩ => ⟨S2, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S2x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_cst_9 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_10 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  reducesTo_S2x16384_S2_d1 : S2x16384.ReducesTo [1] S2
  h_S_ : 0 < S_.numel
  bcast_S_S2 : S_.BroadcastsInDim S2 (![] : Fin 0 → Fin S2.rank)
  bcast_S2_S2x1_0 : S2.BroadcastsInDim S2x1 (![0] : Fin 1 → Fin S2x1.rank)
  bcast_S2x1_S2x16384_0_1 : S2x1.BroadcastsInDim S2x16384 (![0, 1] : Fin 2 → Fin S2x16384.rank)
  reducesTo_S2x16384x3_S2x16384_d2 : S2x16384x3.ReducesTo [2] S2x16384
  reducesTo_S2x8192x3_S2x8192_d2 : S2x8192x3.ReducesTo [2] S2x8192
  bcast_S2x16384_S2x16384x1_0_1 : S2x16384.BroadcastsInDim S2x16384x1 (![0, 1] : Fin 2 → Fin S2x16384x1.rank)
  bcast_S2x8192_S2x1x8192_0_2 : S2x8192.BroadcastsInDim S2x1x8192 (![0, 2] : Fin 2 → Fin S2x1x8192.rank)
  bcast_S2x16384x1_S2x16384x8192_0_1_2 : S2x16384x1.BroadcastsInDim S2x16384x8192 (![0, 1, 2] : Fin 3 → Fin S2x16384x8192.rank)
  bcast_S2x1x8192_S2x16384x8192_0_1_2 : S2x1x8192.BroadcastsInDim S2x16384x8192 (![0, 1, 2] : Fin 3 → Fin S2x16384x8192.rank)
  bcast_S_S2x16384x8192 : S_.BroadcastsInDim S2x16384x8192 (![] : Fin 0 → Fin S2x16384x8192.rank)
  reducesTo_S2x16384x8192_S2x16384_d2 : S2x16384x8192.ReducesTo [2] S2x16384
  reducesTo_S2x16384x8192_S2x8192_d1 : S2x16384x8192.ReducesTo [1] S2x8192
  reducesTo_S2x8192_S2_d1 : S2x8192.ReducesTo [1] S2
  reducesTo_S2_S_d0 : S2.ReducesTo [0] S_
  dot_S2x16384x3_S2x8192x3_S2x16384x8192_2_2_1_1_0_0_wf : DotDims.WF S2x16384x3 S2x8192x3 S2x16384x8192 [2] [2] [1] [1] [0] [0]

variable [Facts₀]

def dot_S2x16384x3_S2x8192x3_S2x16384x8192_2_2_1_1_0_0 : DotDims S2x16384x3 S2x8192x3 S2x16384x8192 where
  lhsContracting := [2]
  rhsContracting := [2]
  lhsNonContracting := [1]
  rhsNonContracting := [1]
  lhsBatch := [0]
  rhsBatch := [0]
  wf := dot_S2x16384x3_S2x8192x3_S2x16384x8192_2_2_1_1_0_0_wf

class Facts : Prop extends Facts₀ where

variable [Facts]
-- ==== Proof.Pieces.lean ====
/-
  What each control case of the kernel body leaves in its two output blocks and in the scratch it carries,
  as the body's pure payloads of the blocks it loaded. In the reset case (first tile of a batch) the scratch is
  stored the starting word, read back, and replaced by `min` of that and the tile's column minima; in the
  carrying case it comes in holding the previous tile's running minimum. The second output's block is always a
  copy of the scratch just stored, with a unit axis in front; the first output's block is the tile's row minima.
-/
import proofs.«136996_j29927332118898_1_alg».proof.Proof.Gen.KernelIdeal.Frame
import Idealize.ShloMosaic.Lib.Pipeline.Value
import Idealize.ShloMosaic.Lib.Tactic
import Idealize.ShloMosaic.Lib.Pipeline.FrameBody

set_option maxRecDepth 16384

noncomputable section

namespace Cert.KernelIdeal.Chamfer

open Idealize.ShloMosaic Idealize.ShloMosaic.TcCoe Idealize.ShloMosaic.Tactic Idealize.SL.Sem
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A load of the whole buffer after a store of the whole buffer reads that store's value, whatever was stored before. -/
theorem readCov_head_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

/-! ## The reset case (the first tile of a batch) -/

/-- The row minima stored: the payload of the tile's blocks. -/
theorem outA3 (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x1x8192 .f32) (harg4 : arg4.IsWhole) (arg5 : Memref sig .tc .vmem S1x1x256 .f32) (harg5 : arg5.IsWhole) (arg6 : Memref sig .tc .vmem S1x1x8192 .f32) (harg6 : arg6.IsWhole) (arg7 : Memref sig .tc .vmem S1x8192 .f32) (harg7 : arg7.IsWhole) (hc0 : cond0_0 i) (x0 : Vec F S1x256x3 .f32) (x1 : Vec F S1x8192x3 .f32) (x2 : Vec F S1x1x8192 .f32) :
    out0_A_3 c i arg2 harg2 arg3 harg3 arg4 harg4 arg5 harg5 arg6 harg6 arg7 harg7 hc0 x0 x1 x2 = k0_pay4 x0 x1 x2 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero hz3]
  simp only [View.readAt_eq_ld, harg2.read_unread, harg3.read_unread, harg4.read_unread, View.ld_unit_zero (S := S1x256x3) hz3, View.ld_unit_zero (S := S1x8192x3) hz3, View.ld_unit_zero (S := S1x1x8192) hz3]

/-- The running column minimum after the reset, `min` of the reset value and the tile's: what the scratch holds. -/
theorem soutA0 (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x1x8192 .f32) (harg4 : arg4.IsWhole) (arg5 : Memref sig .tc .vmem S1x1x256 .f32) (harg5 : arg5.IsWhole) (arg6 : Memref sig .tc .vmem S1x1x8192 .f32) (harg6 : arg6.IsWhole) (arg7 : Memref sig .tc .vmem S1x8192 .f32) (harg7 : arg7.IsWhole) (hc0 : cond0_0 i) (x0 : Vec F S1x256x3 .f32) (x1 : Vec F S1x8192x3 .f32) (x2 : Vec F S1x1x8192 .f32) :
    sout0_A_0 c i arg2 harg2 arg3 harg3 arg4 harg4 arg5 harg5 arg6 harg6 arg7 harg7 hc0 x0 x1 x2 = k0_pay1 (k0_pay6 x0 x1 x2 (k0_pay5 (F := F))) := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  rw [View.canon_cons_unit_zero (S := S1x8192) hz2]
  simp only [View.readAt_eq_ld, harg2.read_unread, harg3.read_unread, harg4.read_unread, View.ld_unit_zero (S := S1x256x3) hz3, View.ld_unit_zero (S := S1x8192x3) hz3, View.ld_unit_zero (S := S1x1x8192) hz3, View.readCov_unit_zero (S := S1x8192) _ hz2]

/-- And the same, with a unit axis in front, in the second output's block. -/
theorem outA4 (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x1x8192 .f32) (harg4 : arg4.IsWhole) (arg5 : Memref sig .tc .vmem S1x1x256 .f32) (harg5 : arg5.IsWhole) (arg6 : Memref sig .tc .vmem S1x1x8192 .f32) (harg6 : arg6.IsWhole) (arg7 : Memref sig .tc .vmem S1x8192 .f32) (harg7 : arg7.IsWhole) (hc0 : cond0_0 i) (x0 : Vec F S1x256x3 .f32) (x1 : Vec F S1x8192x3 .f32) (x2 : Vec F S1x1x8192 .f32) :
    out0_A_4 c i arg2 harg2 arg3 harg3 arg4 harg4 arg5 harg5 arg6 harg6 arg7 harg7 hc0 x0 x1 x2 = k0_pay2 (k0_pay1 (k0_pay6 x0 x1 x2 (k0_pay5 (F := F)))) := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_unit_zero hz3]
  simp only [View.readAt_eq_ld, harg2.read_unread, harg3.read_unread, harg4.read_unread, View.ld_unit_zero (S := S1x256x3) hz3, View.ld_unit_zero (S := S1x8192x3) hz3, View.ld_unit_zero (S := S1x1x8192) hz3, View.readCov_unit_zero (S := S1x8192) _ hz2, readCov_head_whole (S := S1x8192) _ hz2]

/-! ## The carrying case (every later tile of a batch): the scratch comes in holding `xs0` -/

theorem outB3 (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x1x8192 .f32) (harg4 : arg4.IsWhole) (arg5 : Memref sig .tc .vmem S1x1x256 .f32) (harg5 : arg5.IsWhole) (arg6 : Memref sig .tc .vmem S1x1x8192 .f32) (harg6 : arg6.IsWhole) (arg7 : Memref sig .tc .vmem S1x8192 .f32) (harg7 : arg7.IsWhole) (hc0 : ¬cond0_0 i) (x0 : Vec F S1x256x3 .f32) (x1 : Vec F S1x8192x3 .f32) (x2 : Vec F S1x1x8192 .f32) (xs0 : Vec F S1x8192 .f32) :
    out0_B_3 c i arg2 harg2 arg3 harg3 arg4 harg4 arg5 harg5 arg6 harg6 arg7 harg7 hc0 x0 x1 x2 xs0 = k0_pay4 x0 x1 x2 := by
  unfold out0_B_3
  rw [View.read_writes_eq_canon _ _ _ (cover0_B_3 c i arg2 harg2 arg3 harg3 arg4 harg4 arg5 harg5 arg6 harg6 arg7 harg7 hc0 x0 x1 x2 xs0)]
  unfold kernelRun0_B
  dsimp only
  sl_unfold_words
  rw [View.canon_unit_zero hz3]
  simp only [View.readAt_eq_ld, harg2.read_unread, harg3.read_unread, harg4.read_unread, View.ld_unit_zero (S := S1x256x3) hz3, View.ld_unit_zero (S := S1x8192x3) hz3, View.ld_unit_zero (S := S1x1x8192) hz3]

theorem soutB0 (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x1x8192 .f32) (harg4 : arg4.IsWhole) (arg5 : Memref sig .tc .vmem S1x1x256 .f32) (harg5 : arg5.IsWhole) (arg6 : Memref sig .tc .vmem S1x1x8192 .f32) (harg6 : arg6.IsWhole) (arg7 : Memref sig .tc .vmem S1x8192 .f32) (harg7 : arg7.IsWhole) (hc0 : ¬cond0_0 i) (x0 : Vec F S1x256x3 .f32) (x1 : Vec F S1x8192x3 .f32) (x2 : Vec F S1x1x8192 .f32) (xs0 : Vec F S1x8192 .f32) :
    sout0_B_0 c i arg2 harg2 arg3 harg3 arg4 harg4 arg5 harg5 arg6 harg6 arg7 harg7 hc0 x0 x1 x2 xs0 = k0_pay1 (k0_pay6 x0 x1 x2 xs0) := by
  unfold sout0_B_0
  rw [View.read_writes_eq_canon _ _ _ (scover0_B_0 c i arg2 harg2 arg3 harg3 arg4 harg4 arg5 harg5 arg6 harg6 arg7 harg7 hc0 x0 x1 x2 xs0)]
  unfold kernelRun0_B
  dsimp only
  sl_unfold_words
  rw [View.canon_unit_zero hz2]
  simp only [View.readAt_eq_ld, harg2.read_unread, harg3.read_unread, harg4.read_unread, View.ld_unit_zero (S := S1x256x3) hz3, View.ld_unit_zero (S := S1x8192x3) hz3, View.ld_unit_zero (S := S1x1x8192) hz3, harg7.read_unread, View.ld_unit_zero (S := S1x8192) hz2]

theorem outB4 (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x1x8192 .f32) (harg4 : arg4.IsWhole) (arg5 : Memref sig .tc .vmem S1x1x256 .f32) (harg5 : arg5.IsWhole) (arg6 : Memref sig .tc .vmem S1x1x8192 .f32) (harg6 : arg6.IsWhole) (arg7 : Memref sig .tc .vmem S1x8192 .f32) (harg7 : arg7.IsWhole) (hc0 : ¬cond0_0 i) (x0 : Vec F S1x256x3 .f32) (x1 : Vec F S1x8192x3 .f32) (x2 : Vec F S1x1x8192 .f32) (xs0 : Vec F S1x8192 .f32) :
    out0_B_4 c i arg2 harg2 arg3 harg3 arg4 harg4 arg5 harg5 arg6 harg6 arg7 harg7 hc0 x0 x1 x2 xs0 = k0_pay2 (k0_pay1 (k0_pay6 x0 x1 x2 xs0)) := by
  unfold out0_B_4
  rw [View.read_writes_eq_canon _ _ _ (cover0_B_4 c i arg2 harg2 arg3 harg3 arg4 harg4 arg5 harg5 arg6 harg6 arg7 harg7 hc0 x0 x1 x2 xs0)]
  unfold kernelRun0_B
  dsimp only
  sl_unfold_words
  rw [View.canon_unit_zero hz3]
  simp only [View.readAt_eq_ld, harg2.read_unread, harg3.read_unread, harg4.read_unread, View.ld_unit_zero (S := S1x256x3) hz3, View.ld_unit_zero (S := S1x8192x3) hz3, View.ld_unit_zero (S := S1x1x8192) hz3, harg7.read_unread, View.ld_unit_zero (S := S1x8192) hz2, View.readCov_unit_zero (S := S1x8192) _ hz2]

end Cert.KernelIdeal.Chamfer

end
-- ==== Proof.Distance.lean ====
/-
  The mathematics both programs compute, over the extended reals, with no program in sight.

  For two points `x y : Fin 3 → EReal` the squared distance is expanded as
  `dist x y = (‖x‖² + ‖y‖²) − 2·⟨x, y⟩`, the factor `2` kept as the word both programs print.
  A row minimum and a column minimum of the table `dist (X n) (Y c)` are folds of `min` from the word
  both programs start from (`top`, the pattern of +∞); the word is never evaluated: a fold of `min` is
  determined by its lower bounds, `z ≤ fold ↔ z ≤ top ∧ ∀ k, z ≤ f k`, and that is all the comparison of a
  minimum taken tile by tile (256 rows at a time, a running `min`) with a minimum taken at once needs.
-/
import Idealize.ShloMosaic.PureOps.Ideal
import Idealize.ShloMosaic.PureOps.Ideal.Laws
import Idealize.ShloMosaic.Lib.ValueIdx
import Mathlib.Data.Finset.Fold
import Mathlib.Order.Basic

noncomputable section

namespace Cert.Chamfer

open Idealize.ShloMosaic

/-- The word `2.0`, as both programs print it. -/
abbrev two : EReal := Ideal.ofBits .f32 0x40000000#32

/-- The word the minima start from (the pattern of +∞), as both programs print it. -/
abbrev top : EReal := Ideal.ofBits .f32 0x7F800000#32

/-- The squared norm of a point: the sum of its three squares. -/
def sqn (x : Fin 3 → EReal) : EReal := ∑ k : Fin 3, x k * x k

/-- The inner product of two points. -/
def dot3 (x y : Fin 3 → EReal) : EReal := ∑ k : Fin 3, x k * y k

/-- The expanded squared distance `(‖x‖² + ‖y‖²) − 2·⟨x, y⟩`, associated as both programs associate it. -/
def dist (x y : Fin 3 → EReal) : EReal := (sqn x + sqn y) - two * dot3 x y

/-- Point `n` of batch `b` of an array of `2 × N` points in space. -/
def pt {N : ℕ} (x : (⟨3, ![2, N, 3]⟩ : Shape).Idx → EReal) (b : Fin 2) (n : Fin N) : Fin 3 → EReal :=
  fun k => x (ValueIdx.ix3 b n k)

/-- The minimum of a finite family, folded from `top`. -/
def minOver {n : ℕ} (f : Fin n → EReal) : EReal := (Finset.univ : Finset (Fin n)).fold min top f

/-- A fold of `min` is determined by its lower bounds. -/
theorem le_minOver {n : ℕ} (f : Fin n → EReal) (z : EReal) : z ≤ minOver f ↔ z ≤ top ∧ ∀ k, z ≤ f k := by
  unfold minOver
  rw [Finset.le_fold_min]
  simp

/-- Two extended reals with the same lower bounds are equal. -/
theorem eq_of_lower_bounds {a b : EReal} (h : ∀ z, z ≤ a ↔ z ≤ b) : a = b :=
  le_antisymm ((h a).mp le_rfl) ((h b).mpr le_rfl)

/-- Row `256·q + r` of the 16384 rows, for a tile `q < 64` and a row `r` of the tile. -/
def tileRow (q : ℕ) (hq : q < 64) (r : Fin 256) : Fin 16384 := ⟨256 * q + r.val, by have := r.isLt; omega⟩

/-- The rows below the end of tile `q` are the rows below its start together with the tile's own 256. -/
theorem rows_split (P : Fin 16384 → Prop) (q : ℕ) (hq : q < 64) :
    (∀ n : Fin 16384, n.val < 256 * (q + 1) → P n) ↔
      (∀ n : Fin 16384, n.val < 256 * q → P n) ∧ ∀ r : Fin 256, P (tileRow q hq r) := by
  constructor
  · intro h
    exact ⟨fun n hn => h n (by omega), fun r => h _ (by unfold tileRow; have := r.isLt; simp only; omega)⟩
  · rintro ⟨h1, h2⟩ n hn
    by_cases hlt : n.val < 256 * q
    · exact h1 n hlt
    · have hr : n.val - 256 * q < 256 := by omega
      have e : n = tileRow q hq ⟨n.val - 256 * q, hr⟩ := Fin.ext (by unfold tileRow; simp only; omega)
      rw [e]; exact h2 _

/-- The step of the running minimum: the lower bounds of `min s (minimum of tile q)` are those of `s`
    (the rows before the tile) together with the tile's rows. -/
theorem running_min_step (f : Fin 16384 → EReal) (q : ℕ) (hq : q < 64) (s z : EReal)
    (hs : z ≤ s ↔ z ≤ top ∧ ∀ n : Fin 16384, n.val < 256 * q → z ≤ f n) :
    z ≤ min s (minOver fun r : Fin 256 => f (tileRow q hq r)) ↔
      z ≤ top ∧ ∀ n : Fin 16384, n.val < 256 * (q + 1) → z ≤ f n := by
  rw [le_min_iff, hs, le_minOver, rows_split (fun n => z ≤ f n) q hq]
  tauto

/-- The first tile, started from `top` itself. -/
theorem running_min_first (f : Fin 16384 → EReal) (z : EReal) :
    z ≤ min top (minOver fun r : Fin 256 => f (tileRow 0 (by decide) r)) ↔
      z ≤ top ∧ ∀ n : Fin 16384, n.val < 256 * (0 + 1) → z ≤ f n :=
  running_min_step f 0 (by decide) top z ⟨fun h => ⟨h, fun n hn => absurd hn (by omega)⟩, fun h => h.1⟩

/-- After the last tile every row is in: the running minimum is the minimum taken at once. -/
theorem running_min_last (f : Fin 16384 → EReal) (s : EReal)
    (hs : ∀ z, z ≤ s ↔ z ≤ top ∧ ∀ n : Fin 16384, n.val < 256 * (63 + 1) → z ≤ f n) : s = minOver f :=
  eq_of_lower_bounds fun z => by
    rw [hs z, le_minOver]
    exact ⟨fun h => ⟨h.1, fun k => h.2 k (by have := k.isLt; omega)⟩, fun h => ⟨h.1, fun n _ => h.2 n⟩⟩

end Cert.Chamfer

end
-- ==== Proof.Blocks.lean ====
/-
  Where the kernel's blocks come from. A point `t` of the 2 × 64 grid is tile `t % 64` of batch `t / 64`:
  the first cloud's block holds rows `256·tile … 256·tile + 255` of that batch, the second cloud's block the
  whole batch, and the third block that batch's row of the second cloud's squared norms, which the host
  computed before the region as the sum of the three squares of each point.
-/
import proofs.«136996_j29927332118898_1_alg».proof.Proof.Gen.KernelIdeal.Frame
import proofs.«136996_j29927332118898_1_alg».proof.Proof.Distance
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Chamfer

open Idealize.ShloMosaic Idealize.ShloMosaic.TcCoe Idealize.ShloMosaic.ValueIdx Idealize.SL.Sem
open Cert.KernelIdeal Cert.KernelIdeal.Gen Cert.Chamfer

variable {F : FTy → Type} [FloatOps F]
variable (m : (ℓ : Loc nD τ sig) → Buf (Elt F) ℓ)

/-- The three input blocks at a point, and the three arrays they are cut from, at their literal types. -/
abbrev blkX (c : Dev nD) (t : Fin cfg0.N) : Vec F S1x256x3 .f32 := iblk m c 0 t
abbrev blkY (c : Dev nD) (t : Fin cfg0.N) : Vec F S1x8192x3 .f32 := iblk m c 1 t
abbrev blkS (c : Dev nD) (t : Fin cfg0.N) : Vec F S1x1x8192 .f32 := iblk m c 2 t
abbrev arrX (c : Dev nD) : Vec F S2x16384x3 .f32 := V m c main_arg0
abbrev arrY (c : Dev nD) : Vec F S2x8192x3 .f32 := V m c main_arg1
abbrev arrS (c : Dev nD) : Vec F S2x1x8192 .f32 := V m c main_v2

theorem N128 : cfg0.N = 128 := N_0

/-- A point `t` of the 2 × 64 grid is tile `t % 64` of batch `t / 64`. -/
def batchOf (t : Fin cfg0.N) : Fin 2 := ⟨t.val / 64, by have := t.isLt; have := N128; omega⟩
theorem tile_lt (t : Fin cfg0.N) : t.val % 64 < 64 := Nat.mod_lt _ (by decide)

/-- Where each window's block sits at a point: the printed index maps, decided once over the grid. -/
theorem idx_facts : ∀ t : Fin cfg0.N,
    (win0_0.index t (0 : Fin 3) = t.val / 64 ∧ win0_0.index t (1 : Fin 3) = t.val % 64 ∧ win0_0.index t (2 : Fin 3) = 0)
    ∧ (win0_1.index t (0 : Fin 3) = t.val / 64 ∧ win0_1.index t (1 : Fin 3) = 0 ∧ win0_1.index t (2 : Fin 3) = 0)
    ∧ (win0_2.index t (0 : Fin 3) = t.val / 64 ∧ win0_2.index t (1 : Fin 3) = 0 ∧ win0_2.index t (2 : Fin 3) = 0)
    ∧ (win0_3.index t (0 : Fin 3) = t.val / 64 ∧ win0_3.index t (1 : Fin 3) = 0 ∧ win0_3.index t (2 : Fin 3) = t.val % 64)
    ∧ (win0_4.index t (0 : Fin 3) = t.val / 64 ∧ win0_4.index t (1 : Fin 3) = 0 ∧ win0_4.index t (2 : Fin 3) = 0) :=
  (by decide +kernel : ∀ t : Fin grid0.N, _)

/-- Row `r`, coordinate `k` of the first cloud's block at a point is row `256·tile + r` of the point's batch. -/
theorem blkX_apply (c : Dev nD) (t : Fin cfg0.N) (r : Fin 256) (k : Fin 3) :
    blkX m c t (ix3 0 r k) = arrX m c (ix3 (batchOf t) (tileRow (t.val % 64) (tile_lt t) r) k) := by
  obtain ⟨⟨h0, h1, h2⟩, -⟩ := idx_facts t
  show iblk m c 0 t (ix3 0 r k) = V m c main_arg0 _
  unfold iblk
  rw [View.read_apply]
  show V m c main_arg0 _ = V m c main_arg0 _
  congr 1
  funext a
  apply Fin.ext
  match a with
  | ⟨0, _⟩ => show win0_0.index t 0 * 1 + 1 * 0 = t.val / 64; rw [h0]; omega
  | ⟨1, _⟩ => show win0_0.index t 1 * 256 + 1 * r.val = 256 * (t.val % 64) + r.val; rw [h1]; omega
  | ⟨2, _⟩ => show win0_0.index t 2 * 3 + 1 * k.val = k.val; rw [h2]; omega

/-- The second cloud's block at a point is the whole cloud of the point's batch. -/
theorem blkY_apply (c : Dev nD) (t : Fin cfg0.N) (p : Fin 8192) (k : Fin 3) :
    blkY m c t (ix3 0 p k) = arrY m c (ix3 (batchOf t) p k) := by
  obtain ⟨-, ⟨h0, h1, h2⟩, -⟩ := idx_facts t
  show iblk m c 1 t (ix3 0 p k) = V m c main_arg1 _
  unfold iblk
  rw [View.read_apply]
  show V m c main_arg1 _ = V m c main_arg1 _
  congr 1
  funext a
  apply Fin.ext
  match a with
  | ⟨0, _⟩ => show win0_1.index t 0 * 1 + 1 * 0 = t.val / 64; rw [h0]; omega
  | ⟨1, _⟩ => show win0_1.index t 1 * 8192 + 1 * p.val = p.val; rw [h1]; omega
  | ⟨2, _⟩ => show win0_1.index t 2 * 3 + 1 * k.val = k.val; rw [h2]; omega

/-- The block of squared norms at a point is the row of the point's batch. -/
theorem blkS_apply (c : Dev nD) (t : Fin cfg0.N) (p : Fin 8192) :
    blkS m c t (ix3 0 0 p) = arrS m c (ix3 (batchOf t) 0 p) := by
  obtain ⟨-, -, ⟨h0, h1, h2⟩, -⟩ := idx_facts t
  show iblk m c 2 t (ix3 0 0 p) = V m c main_v2 _
  unfold iblk
  rw [View.read_apply]
  show V m c main_v2 _ = V m c main_v2 _
  congr 1
  funext a
  apply Fin.ext
  match a with
  | ⟨0, _⟩ => show win0_2.index t 0 * 1 + 1 * 0 = t.val / 64; rw [h0]; omega
  | ⟨1, _⟩ => show win0_2.index t 1 * 1 + 1 * 0 = 0; rw [h1]
  | ⟨2, _⟩ => show win0_2.index t 2 * 8192 + 1 * p.val = p.val; rw [h2]; omega

/-- The launch contents of the two clouds, which the region finds unchanged. -/
abbrev inX (c : Dev nD) : Vec F S2x16384x3 .f32 := m ((c : Thread nD τ).loc main_arg0)
abbrev inY (c : Dev nD) : Vec F S2x8192x3 .f32 := m ((c : Thread nD τ).loc main_arg1)
theorem arrX_eq (c : Dev nD) : arrX m c = inX m c := V_main_arg0 m c
theorem arrY_eq (c : Dev nD) : arrY m c = inY m c := V_main_arg1 m c

section AtIdeal
variable (mI : (ℓ : Loc nD τ sig) → Buf (Elt Ideal) ℓ)

/-- What the region finds in the array of squared norms: entry (b, 0, p) is the squared norm of point `p` of
    batch `b` of the second cloud — the host's sum of the three squares from the zero word, broadcast to a unit axis. -/
theorem arrS_apply (c : Dev nD) (b : Fin 2) (p : Fin 8192) :
    arrS mI c (ix3 b 0 p) = sqn (pt (inY mI c) b p) := by
  have e : (V mI c main_v2 : S2x1x8192.Idx → EReal) = broadcastInDim S2x1x8192 ![0, 2] bcast_S2x8192_S2x1x8192_0_2
      (Host.reduceAdd (F := Ideal) (mulf (inY mI c) (inY mI c)) (constant (F := Ideal) S_ .f32 0x00000000#32)
        reducesTo_S2x8192x3_S2x8192_d2 h_S_) := by
    show StableHlo.after hostOps0 (fun b => mI (c, b)) (Proc.devRef .tc main_v2) = _
    after_results
  show V mI c main_v2 _ = _
  rw [e, broadcastInDim_apply _ bcast_S2x8192_S2x1x8192_0_2 _ (ix3 b 0 p) (ix2 b p) (fun a => match a with
    | ⟨0, _⟩ => by show b.val = if (2 : Nat) = 1 then 0 else b.val; rw [if_neg (by decide)]
    | ⟨1, _⟩ => by show p.val = if (8192 : Nat) = 1 then 0 else p.val; rw [if_neg (by decide)])]
  simp only [Host.reduceAdd, Ideal.hostReduceAdd_def]
  rw [Ideal.hostReduceAdd_single reducesTo_S2x8192x3_S2x8192_d2 (by decide)]
  show Ideal.ofBits .f32 0x00000000#32 + _ = _
  rw [Ideal.ofBits_zero_f32, zero_add]
  unfold sqn pt
  refine Finset.sum_congr rfl fun k _ => ?_
  have hk : (Shape.Reduces.lift (by decide : S2x8192x3.Reduces [2] S2x8192) (ix2 b p) k) = ix3 b p k :=
    funext fun a => Fin.ext (by match a with | ⟨0, _⟩ => rfl | ⟨1, _⟩ => rfl | ⟨2, _⟩ => rfl)
  rw [hk]
  rfl

end AtIdeal

end Cert.KernelIdeal.Chamfer

end
-- ==== Proof.LibColumnForms.lean ====
/-
  General lemmas for kernels that keep a reduced axis as a unit axis (`keepdims`) and for one-axis minima, read at an index.

  * `shapeCast_a_a1_apply`: an `[a]` array cast to a column `[a, 1]`, read at `(i, u)`, is the operand at `i`.
  * `broadcastTo_a1_ab_apply`: a column `[a, 1]` broadcast to `[a, b]`, read at `(p, c)`, is the column at `p`.
  * `shapeCast_a1b_ab_apply`: an `[a, 1, b]` array cast to `[a, b]`, read at `(i, j)`, is the operand at `(i, 0, j)`.
  * `lift_axis1`, `lift_axis0`: the source index of a rank-2 reduction along axis 1 (along axis 0) over a lane, with the
    reduced coordinate inserted, by coordinates.
  * `multiReduction_minimumf_single`: a float `vector.multi_reduction <minimumf>` over one axis at the ideal values is
    the fold of `min` from the accumulator's value over that axis's coordinates (the library states this for
    `<maximumf>`).
  Generic in the extents; nothing here mentions a program.
-/
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.ColumnForms

open Idealize.ShloMosaic Idealize.ShloMosaic.ValueIdx

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array cast to `[a, b]` reads, at `(i, j)`, the operand at `(i, 0, j)`: the same row-major position. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Layout

section Reduce

/-- The source index over lane `r` of a reduction along axis 1 with coordinate `k` inserted is `(r, k)`. -/
theorem lift_axis1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- The source index over lane `c` of a reduction along axis 0 with coordinate `k` inserted is `(k, c)`. -/
theorem lift_axis0 {a b : ℕ} (h : (⟨2, ![a, b]⟩ : Shape).Reduces [0] ⟨1, ![b]⟩) (c : Fin b) (k : Fin a) :
    h.lift (ix1 c) k = ix2 k c := by
  funext d
  apply Fin.ext
  match d with
  | ⟨0, _⟩ => rfl
  | ⟨1, _⟩ => rfl

/-- A float `vector.multi_reduction <minimumf>` over one axis, read at the ideal values: the fold of `min` from the
    accumulator's value over that axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]
  exact h.fold_filter_drop_single _ _ src j

end Reduce

end Cert.ColumnForms

end
-- ==== Proof.Payload.lean ====
/-
  The kernel body's arithmetic read at an index, at the ideal instance.
  For a tile of 256 points `x0`, the 8192 points `x1` and their squared norms `x2`:
  the table entry (r, c) is `(‖x0 r‖² + x2 c) − 2·⟨x0 r, x1 c⟩`; the tile's row minima and column minima are
  folds of `min` over that table; the running column minimum is `min` of what was there and the tile's.
-/
import proofs.«136996_j29927332118898_1_alg».proof.Proof.Gen.KernelIdeal.Skeleton
import proofs.«136996_j29927332118898_1_alg».proof.Proof.Distance
import proofs.«136996_j29927332118898_1_alg».proof.Proof.LibColumnForms
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Chamfer

open Idealize.ShloMosaic Idealize.ShloMosaic.ValueIdx Cert.KernelIdeal Cert.KernelIdeal.Gen Cert.Chamfer Cert.ColumnForms

/-- A lane sum of a `[256, 3]` array, read at lane `r`: the sum over the three coordinates of row `r`. -/
theorem lanesum_apply (V : FVec Ideal S256x3 .f32) (hφ : FKind.Formats .f32)
    (hacc : (0x00000000#32 : BitVec 32) = FKind.add.neutral .f32 hφ) (r : Fin 256) :
    multiReduction (F := Ideal) .add [1] S256 V 0x00000000#32 reduces_S256x3_S256 hφ hacc (ix1 r)
      = ∑ k : Fin 3, V (ix2 r k) := by
  refine (Ideal.multiReduction_add_single V _ reduces_S256x3_S256 hφ hacc (ix1 r)).trans ?_
  exact Finset.sum_congr rfl fun k _ => congrArg V (lift_axis1 _ r k)

section Matmul

/-- The left operand's row coordinate is the output's row. -/
theorem lhs_dot_0 (i : S256x8192.Idx) (q : dot_S256x3_S8192x3_S256x8192_1_1_0_0_n_n.contr.Idx) :
    (dot_S256x3_S8192x3_S256x8192_1_1_0_0_n_n.lhsIdx i q 0).val = (i 0).val := by
  unfold DotDims.lhsIdx
  rw [dif_neg (show ¬(0 : Fin S256x3.rank) ∈ dot_S256x3_S8192x3_S256x8192_1_1_0_0_n_n.lhsBatch by decide), dif_pos (show (0 : Fin S256x3.rank) ∈ dot_S256x3_S8192x3_S256x8192_1_1_0_0_n_n.lhsNonContracting by decide)]
  rfl
/-- The left operand's lane coordinate is the contraction coordinate. -/
theorem lhs_dot_1 (i : S256x8192.Idx) (q : dot_S256x3_S8192x3_S256x8192_1_1_0_0_n_n.contr.Idx) :
    (dot_S256x3_S8192x3_S256x8192_1_1_0_0_n_n.lhsIdx i q 1).val = (q ⟨0, by decide⟩).val :=
  dot_S256x3_S8192x3_S256x8192_1_1_0_0_n_n.lhsIdx_val_of_single rfl i q
/-- The right operand's row coordinate is the output's column. -/
theorem rhs_dot_0 (i : S256x8192.Idx) (q : dot_S256x3_S8192x3_S256x8192_1_1_0_0_n_n.contr.Idx) :
    (dot_S256x3_S8192x3_S256x8192_1_1_0_0_n_n.rhsIdx i q 0).val = (i 1).val := by
  unfold DotDims.rhsIdx
  rw [dif_neg (show ¬(0 : Fin S8192x3.rank) ∈ dot_S256x3_S8192x3_S256x8192_1_1_0_0_n_n.rhsBatch by decide), dif_pos (show (0 : Fin S8192x3.rank) ∈ dot_S256x3_S8192x3_S256x8192_1_1_0_0_n_n.rhsNonContracting by decide)]
  rfl
/-- The right operand's lane coordinate is the contraction coordinate. -/
theorem rhs_dot_1 (i : S256x8192.Idx) (q : dot_S256x3_S8192x3_S256x8192_1_1_0_0_n_n.contr.Idx) :
    (dot_S256x3_S8192x3_S256x8192_1_1_0_0_n_n.rhsIdx i q 1).val = (q ⟨0, by decide⟩).val :=
  dot_S256x3_S8192x3_S256x8192_1_1_0_0_n_n.rhsIdx_val_of_single rfl i q

/-- The product into a zero accumulator, read at (r, c): the sum over the three coordinates of row r of the left
    operand times row c of the right. -/
theorem matmul_dot_apply (A : FVec Ideal S256x3 .bf16) (B : FVec Ideal S8192x3 .bf16) (r : Fin 256) (c : Fin 8192) :
    matmul dot_S256x3_S8192x3_S256x8192_1_1_0_0_n_n none A B (constant (F := Ideal) S256x8192 .f32 0x00000000#32) (ix2 r c)
      = ∑ k : Fin 3, A (ix2 r k) * B (ix2 c k) := by
  refine (Ideal.matmul_constant_zero_apply dot_S256x3_S8192x3_S256x8192_1_1_0_0_n_n none A B (ix2 r c)).trans ?_
  rw [← Equiv.sum_comp (contrEquiv1 dot_S256x3_S8192x3_S256x8192_1_1_0_0_n_n 3 rfl rfl).symm]
  refine Finset.sum_congr rfl fun k _ => ?_
  have hk := contrEquiv1_symm_val dot_S256x3_S8192x3_S256x8192_1_1_0_0_n_n 3 rfl rfl k
  have el : dot_S256x3_S8192x3_S256x8192_1_1_0_0_n_n.lhsIdx (ix2 r c) ((contrEquiv1 dot_S256x3_S8192x3_S256x8192_1_1_0_0_n_n 3 rfl rfl).symm k) = ix2 r k := funext fun a => Fin.ext (by
    match a with
    | ⟨0, _⟩ => exact lhs_dot_0 _ _
    | ⟨1, _⟩ => exact (lhs_dot_1 _ _).trans hk)
  have er : dot_S256x3_S8192x3_S256x8192_1_1_0_0_n_n.rhsIdx (ix2 r c) ((contrEquiv1 dot_S256x3_S8192x3_S256x8192_1_1_0_0_n_n 3 rfl rfl).symm k) = ix2 c k := funext fun a => Fin.ext (by
    match a with
    | ⟨0, _⟩ => exact rhs_dot_0 _ _
    | ⟨1, _⟩ => exact (rhs_dot_1 _ _).trans hk)
  rw [el, er]

end Matmul

variable (x0 : Vec Ideal S1x256x3 .f32) (x1 : Vec Ideal S1x8192x3 .f32) (x2 : Vec Ideal S1x1x8192 .f32)

/-- Entry (r, c) of the tile's table of expanded squared distances. -/
theorem table_apply (r : Fin 256) (c : Fin 8192) :
    k0_pay3 (F := Ideal) x0 x1 x2 (ix2 r c)
      = (sqn (fun k => x0 (ix3 0 r k)) + x2 (ix3 0 0 c)) - two * dot3 (fun k => x0 (ix3 0 r k)) (fun k => x1 (ix3 0 c k)) := by
  unfold k0_pay3
  refine (subf_apply _ _ _).trans ?_
  refine congrArg₂ (· - ·) ?_ ?_
  · refine (addf_apply _ _ _).trans ?_
    refine congrArg₂ (· + ·) ?_ ?_
    · refine (broadcastTo_a1_ab_apply _ _ r c).trans ?_
      refine (shapeCast_a_a1_apply _ _ r 0).trans ?_
      refine (lanesum_apply _ _ _ r).trans ?_
      unfold sqn
      refine Finset.sum_congr rfl fun k _ => ?_
      refine (mulf_apply _ _ _).trans ?_
      exact congrArg₂ (· * ·) (shapeCast_1ab_ab_apply x0 _ r k) (shapeCast_1ab_ab_apply x0 _ r k)
    · refine (broadcastTo_1b_ab_apply _ _ r c).trans ?_
      exact shapeCast_1ab_ab_apply x2 _ 0 c
  · refine (mulf_apply _ _ _).trans ?_
    refine congrArg (two * ·) ?_
    refine (matmul_dot_apply _ _ r c).trans ?_
    unfold dot3
    refine Finset.sum_congr rfl fun k _ => ?_
    exact congrArg₂ (· * ·) (shapeCast_1ab_ab_apply x0 _ r k) (shapeCast_1ab_ab_apply x1 _ c k)

/-- The stored row minima: lane r is the minimum of row r of the table. -/
theorem rowmin_apply (r : Fin 256) :
    k0_pay4 (F := Ideal) x0 x1 x2 (ix3 0 0 r) = minOver fun c : Fin 8192 => k0_pay3 (F := Ideal) x0 x1 x2 (ix2 r c) := by
  unfold k0_pay4
  generalize k0_pay3 (F := Ideal) x0 x1 x2 = T
  refine (shapeCast_ab_1ab_apply _ _ 0 0 r).trans ?_
  refine (transpose_ix2_apply _ _ 0 r).trans ?_
  refine (shapeCast_a_a1_apply _ _ r 0).trans ?_
  refine (multiReduction_minimumf_single T _ _ _ _ (ix1 r)).trans ?_
  unfold minOver
  exact congrArg (fun f => Finset.fold min top f Finset.univ) (funext fun k => congrArg T (lift_axis1 _ r k))

/-- The running column minimum: what was there, `min` the tile's column minimum. -/
theorem colmin_apply (s : Vec Ideal S1x8192 .f32) (c : Fin 8192) :
    k0_pay6 (F := Ideal) x0 x1 x2 s (ix2 0 c)
      = min (s (ix2 0 c)) (minOver fun r : Fin 256 => k0_pay3 (F := Ideal) x0 x1 x2 (ix2 r c)) := by
  unfold k0_pay6
  generalize k0_pay3 (F := Ideal) x0 x1 x2 = T
  refine (minimumf_apply _ _ _).trans ?_
  refine congrArg (min (s (ix2 0 c))) ?_
  refine (shapeCast_a_1a_apply _ _ 0 c).trans ?_
  refine (multiReduction_minimumf_single T _ _ _ _ (ix1 c)).trans ?_
  unfold minOver
  exact congrArg (fun f => Finset.fold min top f Finset.univ) (funext fun k => congrArg T (lift_axis0 _ c k))

/-- The reset value: every lane the word the minima start from. -/
theorem reset_apply (c : Fin 8192) : (k0_pay5 (F := Ideal)) (ix2 0 c) = top := by
  unfold k0_pay5
  rw [shapeCast_self]
  rfl

/-- The identity cast of the running minimum before it is stored. -/
theorem pay1_eq (v : FVec Ideal S1x8192 .f32) : k0_pay1 (F := Ideal) v = v := by
  unfold k0_pay1
  exact shapeCast_self v _

/-- The stored running minimum with a leading unit axis added. -/
theorem pay2_apply (v : Vec Ideal S1x8192 .f32) (c : Fin 8192) : k0_pay2 (F := Ideal) v (ix3 0 0 c) = v (ix2 0 c) := by
  unfold k0_pay2
  exact shapeCast_ab_1ab_apply v _ 0 0 c

end Cert.KernelIdeal.Chamfer

end
-- ==== Proof.Accum.lean ====
/-
  What the kernel's buffers hold point by point, at the ideal instance.
  At tile `q` of batch `b` the body's table is the table of expanded squared distances between rows
  `256·q … 256·q + 255` of the first cloud and all points of the second; the first output's block is its row
  minima; the scratch is `min` of what it held (the starting word at a batch's first tile) and the tile's column
  minima. So, by induction over the points, after tile `q` the scratch's lane `p` has exactly the lower bounds
  of the starting word and of column `p` restricted to rows below `256·(q + 1)`: after a batch's last tile it is
  the column's minimum. The second output's block is a copy of the scratch.
-/
import proofs.«136996_j29927332118898_1_alg».proof.Proof.Pieces
import proofs.«136996_j29927332118898_1_alg».proof.Proof.Blocks
import proofs.«136996_j29927332118898_1_alg».proof.Proof.Payload

set_option maxRecDepth 16384

noncomputable section

namespace Cert.KernelIdeal.Chamfer

open Idealize.ShloMosaic Idealize.ShloMosaic.TcCoe Idealize.ShloMosaic.ValueIdx Idealize.SL.Sem
open Cert.KernelIdeal Cert.KernelIdeal.Gen Cert.Chamfer

variable (mI : (ℓ : Loc nD τ sig) → Buf (Elt Ideal) ℓ)

/-- Entry (row, p) of batch `b`'s table of expanded squared distances between the two clouds as launched. -/
abbrev tab (c : Dev nD) (b : Fin 2) (row : Fin 16384) (p : Fin 8192) : EReal :=
  Cert.Chamfer.dist (pt (inX mI c) b row) (pt (inY mI c) b p)

/-- The body's table at tile `q` of batch `b` is rows `256·q + r` of that table. -/
theorem table_at (c : Dev nD) (t : Fin cfg0.N) (b : Fin 2) (q : ℕ) (hq : q < 64) (hb : t.val / 64 = b.val)
    (hqt : t.val % 64 = q) (r : Fin 256) (p : Fin 8192) :
    k0_pay3 (F := Ideal) (blkX mI c t) (blkY mI c t) (blkS mI c t) (ix2 r p) = tab mI c b (tileRow q hq r) p := by
  obtain rfl : b = batchOf t := Fin.ext hb.symm
  subst hqt
  rw [table_apply]
  unfold tab Cert.Chamfer.dist
  have eX : (fun k => blkX mI c t (ix3 0 r k)) = pt (inX mI c) (batchOf t) (tileRow (t.val % 64) hq r) :=
    funext fun k => by rw [blkX_apply, arrX_eq]; rfl
  have eY : (fun k => blkY mI c t (ix3 0 p k)) = pt (inY mI c) (batchOf t) p :=
    funext fun k => by rw [blkY_apply, arrY_eq]; rfl
  rw [eX, eY, blkS_apply, arrS_apply]

/-- The first output's block at a point: lane `r` is the minimum of row `256·q + r` of the table. -/
theorem rowmin_at (c : Dev nD) (t : Fin cfg0.N) (b : Fin 2) (q : ℕ) (hq : q < 64) (hb : t.val / 64 = b.val)
    (hqt : t.val % 64 = q) (r : Fin 256) :
    (outsAt0 mI c t.val t.isLt).1 (ix3 0 0 r) = minOver fun p : Fin 8192 => tab mI c b (tileRow q hq r) p := by
  have key : k0_pay4 (F := Ideal) (blkX mI c t) (blkY mI c t) (blkS mI c t) (ix3 0 0 r) = minOver fun p : Fin 8192 => tab mI c b (tileRow q hq r) p :=
    (rowmin_apply _ _ _ r).trans (congrArg minOver (funext fun p => table_at mI c t b q hq hb hqt r p))
  by_cases h0 : t.val % 64 = 0
  · rw [outsAt0_A mI c t h0]; dsimp only
    exact (congrFun (outA3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (blkX mI c t) (blkY mI c t) (blkS mI c t)) (ix3 0 0 r)).trans key
  · rw [outsAt0_B mI c t h0]; dsimp only
    exact (congrFun (outB3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (blkX mI c t) (blkY mI c t) (blkS mI c t) (outsAt0 mI c (t.val - 1) (Nat.lt_of_le_of_lt (Nat.sub_le _ _) t.isLt)).2.2) (ix3 0 0 r)).trans key

/-- The tile's column minima joined to a value `s` held before. -/
theorem colmin_at (c : Dev nD) (t : Fin cfg0.N) (b : Fin 2) (q : ℕ) (hq : q < 64) (hb : t.val / 64 = b.val)
    (hqt : t.val % 64 = q) (s : Vec Ideal S1x8192 .f32) (p : Fin 8192) :
    k0_pay1 (F := Ideal) (k0_pay6 (F := Ideal) (blkX mI c t) (blkY mI c t) (blkS mI c t) s) (ix2 0 p)
      = min (s (ix2 0 p)) (minOver fun r : Fin 256 => tab mI c b (tileRow q hq r) p) := by
  rw [pay1_eq, colmin_apply]
  exact congrArg (min (s (ix2 0 p))) (congrArg minOver (funext fun r => table_at mI c t b q hq hb hqt r p))

/-- The scratch after a batch's first tile: the starting word, `min` the tile's column minima. -/
theorem scratch_first (c : Dev nD) (t : Fin cfg0.N) (h0 : t.val % 64 = 0) (b : Fin 2) (hb : t.val / 64 = b.val) (p : Fin 8192) :
    (outsAt0 mI c t.val t.isLt).2.2 (ix2 0 p)
      = min top (minOver fun r : Fin 256 => tab mI c b (tileRow 0 (by decide) r) p) := by
  rw [outsAt0_A mI c t h0]; dsimp only
  refine (congrFun (soutA0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (blkX mI c t) (blkY mI c t) (blkS mI c t)) (ix2 0 p)).trans ?_
  rw [colmin_at mI c t b 0 (by decide) hb h0, reset_apply]

/-- The scratch after a later tile: what the point before left, `min` the tile's column minima. -/
theorem scratch_next (c : Dev nD) (t : Fin cfg0.N) (h0 : ¬t.val % 64 = 0) (b : Fin 2) (q : ℕ) (hq : q < 64)
    (hb : t.val / 64 = b.val) (hqt : t.val % 64 = q) (p : Fin 8192) :
    (outsAt0 mI c t.val t.isLt).2.2 (ix2 0 p)
      = min ((outsAt0 mI c (t.val - 1) (Nat.lt_of_le_of_lt (Nat.sub_le _ _) t.isLt)).2.2 (ix2 0 p)) (minOver fun r : Fin 256 => tab mI c b (tileRow q hq r) p) := by
  rw [outsAt0_B mI c t h0]; dsimp only
  refine (congrFun (soutB0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (blkX mI c t) (blkY mI c t) (blkS mI c t) (outsAt0 mI c (t.val - 1) (Nat.lt_of_le_of_lt (Nat.sub_le _ _) t.isLt)).2.2) (ix2 0 p)).trans ?_
  exact colmin_at mI c t b q hq hb hqt _ p

/-- The second output's block is the scratch, with a unit axis in front. -/
theorem second_out_at (c : Dev nD) (t : Fin cfg0.N) (p : Fin 8192) :
    (outsAt0 mI c t.val t.isLt).2.1 (ix3 0 0 p) = (outsAt0 mI c t.val t.isLt).2.2 (ix2 0 p) := by
  by_cases h0 : t.val % 64 = 0
  · rw [outsAt0_A mI c t h0]; dsimp only
    rw [outA4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (blkX mI c t) (blkY mI c t) (blkS mI c t), soutA0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (blkX mI c t) (blkY mI c t) (blkS mI c t)]
    exact pay2_apply _ p
  · rw [outsAt0_B mI c t h0]; dsimp only
    rw [outB4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (blkX mI c t) (blkY mI c t) (blkS mI c t) (outsAt0 mI c (t.val - 1) (Nat.lt_of_le_of_lt (Nat.sub_le _ _) t.isLt)).2.2, soutB0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (blkX mI c t) (blkY mI c t) (blkS mI c t) (outsAt0 mI c (t.val - 1) (Nat.lt_of_le_of_lt (Nat.sub_le _ _) t.isLt)).2.2]
    exact pay2_apply _ p

/-- THE INVARIANT of the running minimum: after tile `q` of batch `b`, lane `p` of the scratch has the lower
    bounds of the starting word and of the rows below `256·(q + 1)` of column `p`. By induction over the points. -/
theorem scratch_inv (c : Dev nD) : ∀ (n : ℕ) (hn : n < cfg0.N) (b : Fin 2) (q : ℕ) (hq : q < 64), n / 64 = b.val → n % 64 = q →
    ∀ (p : Fin 8192) (z : EReal), (z ≤ (outsAt0 mI c n hn).2.2 (ix2 0 p) ↔
      z ≤ top ∧ ∀ row : Fin 16384, row.val < 256 * (q + 1) → z ≤ tab mI c b row p)
  | 0, hn, b, q, hq, hb, hqt, p, z => by
    obtain rfl : q = 0 := by omega
    rw [scratch_first mI c ⟨0, hn⟩ rfl b hb p]
    exact running_min_first (fun row => tab mI c b row p) z
  | n + 1, hn, b, q, hq, hb, hqt, p, z => by
    by_cases h0 : (n + 1) % 64 = 0
    · obtain rfl : q = 0 := by omega
      rw [scratch_first mI c ⟨n + 1, hn⟩ h0 b hb p]
      exact running_min_first (fun row => tab mI c b row p) z
    · obtain ⟨q', rfl⟩ : ∃ q', q = q' + 1 := ⟨q - 1, by omega⟩
      have ih := scratch_inv c n (Nat.lt_of_succ_lt hn) b q' (by omega) (by omega) (by omega) p z
      rw [scratch_next mI c ⟨n + 1, hn⟩ h0 b (q' + 1) hq hb hqt p]
      exact running_min_step (fun row => tab mI c b row p) (q' + 1) hq _ z ih

/-- After a batch's last tile the scratch's lane `p` is the minimum of column `p` of the batch's table. -/
theorem colmin_last (c : Dev nD) (t : Fin cfg0.N) (h63 : t.val % 64 = 63) (b : Fin 2) (hb : t.val / 64 = b.val) (p : Fin 8192) :
    (outsAt0 mI c t.val t.isLt).2.2 (ix2 0 p) = minOver fun row : Fin 16384 => tab mI c b row p :=
  running_min_last (fun row => tab mI c b row p) _ (fun z => scratch_inv mI c t.val t.isLt b 63 (by decide) hb h63 p z)

end Cert.KernelIdeal.Chamfer

end
-- ==== Proof.Arrays.lean ====
/-
  The two result arrays of the region, at the ideal instance.
  Every point writes back the row minima of its 256 rows, and the blocks of the first result tile it: entry
  (b, 0, n) ends as the minimum of row `n` of batch `b`'s table. The second result is written back after each
  batch's last tile only, when the scratch holds the column minima over all 16384 rows: entry (b, 0, p) ends
  as the minimum of column `p` of batch `b`'s table.
-/
import proofs.«136996_j29927332118898_1_alg».proof.Proof.Accum

set_option maxRecDepth 16384

noncomputable section

namespace Cert.KernelIdeal.Chamfer

open Idealize.ShloMosaic Idealize.ShloMosaic.TcCoe Idealize.ShloMosaic.ValueIdx Idealize.SL.Sem
open Idealize.ShloMosaic.Pipeline (Dat)
open Cert.KernelIdeal Cert.KernelIdeal.Gen Cert.Chamfer

variable (mI : (ℓ : Loc nD τ sig) → Buf (Elt Ideal) ℓ)

/-- The row minima of both batches' tables, laid out as the first result array. -/
def rowMins (c : Dev nD) : Vec Ideal S2x1x16384 .f32 := fun i => minOver fun p : Fin 8192 => tab mI c (i 0) (i 2) p

/-- The column minima of both batches' tables, laid out as the second result array. -/
def colMins (c : Dev nD) : Vec Ideal S2x1x8192 .f32 := fun i => minOver fun row : Fin 16384 => tab mI c (i 0) row (i 2)

/-! ## The first result: a block of row minima per point -/

theorem flushed3_eq (c : Dev nD) (t : Fin cfg0.N) :
    (dats mI 0 c).flushed 3 t = ((cfg0.win 3).blk t).view.read (Elt Ideal) (rowMins mI c) := by
  obtain ⟨-, -, -, ⟨h0, h1, h2⟩, -⟩ := idx_facts t
  show (cfg0.win 3).cut (grid0.coords t) ((dats mI 0 c).after 3 t) = _
  rw [after0_3]
  funext y
  show (outsAt0 mI c t.val t.isLt).1 y = rowMins mI c (((cfg0.win 3).blk t).view.emb y)
  have hy0 : (y 0).val = 0 := by have : (y 0).val < 1 := (y 0).isLt; omega
  have hy1 : (y 1).val = 0 := by have : (y 1).val < 1 := (y 1).isLt; omega
  have hy2 : (y 2).val < 256 := (y 2).isLt
  have hy : (y : S1x1x256.Idx) = ix3 (0 : Fin 1) (0 : Fin 1) (⟨(y 2).val, hy2⟩ : Fin 256) :=
    funext fun a => Fin.ext (by match a with | ⟨0, _⟩ => exact hy0 | ⟨1, _⟩ => exact hy1 | ⟨2, _⟩ => rfl)
  refine (congrArg (outsAt0 mI c t.val t.isLt).1 hy).trans ?_
  rw [rowmin_at mI c t (batchOf t) (t.val % 64) (tile_lt t) rfl rfl ⟨(y 2).val, hy2⟩]
  unfold rowMins
  have e0 : ((cfg0.win 3).blk t).view.emb y 0 = batchOf t := Fin.ext (by
    show win0_3.index t 0 * 1 + 1 * (y 0).val = t.val / 64; rw [h0, hy0]; omega)
  have e2 : ((cfg0.win 3).blk t).view.emb y 2 = tileRow (t.val % 64) (tile_lt t) ⟨(y 2).val, hy2⟩ := Fin.ext (by
    show win0_3.index t 2 * 256 + 1 * (y 2).val = 256 * (t.val % 64) + (y 2).val; rw [h2]; omega)
  rw [e0, e2]

theorem mem_blk3 (t : Fin cfg0.N) (i : S2x1x16384.Idx) :
    i ∈ ((cfg0.win 3).blk t).view.set ↔ ∀ a : Fin 3, win0_3.index t a * S1x1x256.size a ≤ (i a).val ∧ (i a).val < win0_3.index t a * S1x1x256.size a + S1x1x256.size a := by
  show i ∈ ((View.whole main_v3_0).slice (win0_3.rect t)).set ↔ _
  rw [View.set_slice_whole, Rect.mem_set_unit]
  exact Iff.rfl

/-- Row `n` of batch `b` is written by tile `n / 256` of that batch. -/
theorem cover3 (i : S2x1x16384.Idx) : ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 16384 := (i 2).isLt
  obtain ⟨t, ht⟩ : ∃ t : Fin cfg0.N, t.val = 64 * (i 0).val + (i 2).val / 256 :=
    ⟨⟨64 * (i 0).val + (i 2).val / 256, Nat.lt_of_lt_of_eq (by omega) N128.symm⟩, rfl⟩
  refine ⟨t, flush0_3 t, ?_⟩
  rw [mem_blk3]
  obtain ⟨-, -, -, ⟨h0, h1, h2⟩, -⟩ := idx_facts t
  intro a
  match a with
  | ⟨0, _⟩ => show win0_3.index t 0 * 1 ≤ (i 0).val ∧ (i 0).val < win0_3.index t 0 * 1 + 1; rw [h0]; omega
  | ⟨1, _⟩ => show win0_3.index t 1 * 1 ≤ (i 1).val ∧ (i 1).val < win0_3.index t 1 * 1 + 1; rw [h1]; omega
  | ⟨2, _⟩ => show win0_3.index t 2 * 256 ≤ (i 2).val ∧ (i 2).val < win0_3.index t 2 * 256 + 256; rw [h2]; omega

/-- The first result array after the run. -/
theorem final3 (c : Dev nD) : (dats mI 0 c).arrAt 3 cfg0.N = rowMins mI c :=
  (dats mI 0 c).arrAt_eq_of_cover 3 (rowMins mI c) (fun t _ => flushed3_eq mI c t) cover3

/-! ## The second result: the scratch, written back after each batch's last tile -/

set_option maxRecDepth 200000 in
theorem flushed4_eq (c : Dev nD) (t : Fin cfg0.N) (hf : (cfg0.win 4).flush t = true) :
    (dats mI 0 c).flushed 4 t = ((cfg0.win 4).blk t).view.read (Elt Ideal) (colMins mI c) := by
  have h63 : t.val % 64 = 63 := (flush0_4 t).mp hf
  obtain ⟨-, -, -, -, ⟨h0, h1, h2⟩⟩ := idx_facts t
  show (cfg0.win 4).cut (grid0.coords t) ((dats mI 0 c).after 4 t) = _
  rw [after0_4]
  funext y
  show (outsAt0 mI c t.val t.isLt).2.1 y = colMins mI c (((cfg0.win 4).blk t).view.emb y)
  have hy0 : (y 0).val = 0 := by have : (y 0).val < 1 := (y 0).isLt; omega
  have hy1 : (y 1).val = 0 := by have : (y 1).val < 1 := (y 1).isLt; omega
  have hy2 : (y 2).val < 8192 := (y 2).isLt
  have hy : (y : S1x1x8192.Idx) = ix3 (0 : Fin 1) (0 : Fin 1) (⟨(y 2).val, hy2⟩ : Fin 8192) :=
    funext fun a => Fin.ext (by match a with | ⟨0, _⟩ => exact hy0 | ⟨1, _⟩ => exact hy1 | ⟨2, _⟩ => rfl)
  refine (congrArg (outsAt0 mI c t.val t.isLt).2.1 hy).trans ?_
  rw [second_out_at mI c t ⟨(y 2).val, hy2⟩, colmin_last mI c t h63 (batchOf t) rfl ⟨(y 2).val, hy2⟩]
  unfold colMins
  have e0 : ((cfg0.win 4).blk t).view.emb y 0 = batchOf t := Fin.ext (by
    show win0_4.index t 0 * 1 + 1 * (y 0).val = t.val / 64; rw [h0, hy0]; omega)
  have e2 : ((cfg0.win 4).blk t).view.emb y 2 = (⟨(y 2).val, hy2⟩ : Fin 8192) := Fin.ext (by
    show win0_4.index t 2 * 8192 + 1 * (y 2).val = (y 2).val; rw [h2]; omega)
  rw [e0, e2]

theorem mem_blk4 (t : Fin cfg0.N) (i : S2x1x8192.Idx) :
    i ∈ ((cfg0.win 4).blk t).view.set ↔ ∀ a : Fin 3, win0_4.index t a * S1x1x8192.size a ≤ (i a).val ∧ (i a).val < win0_4.index t a * S1x1x8192.size a + S1x1x8192.size a := by
  show i ∈ ((View.whole main_v3_1).slice (win0_4.rect t)).set ↔ _
  rw [View.set_slice_whole, Rect.mem_set_unit]
  exact Iff.rfl

/-- Batch `b`'s row of the second result is written after that batch's last tile. -/
theorem cover4 (i : S2x1x8192.Idx) : ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 8192 := (i 2).isLt
  obtain ⟨t, ht⟩ : ∃ t : Fin cfg0.N, t.val = 64 * (i 0).val + 63 :=
    ⟨⟨64 * (i 0).val + 63, Nat.lt_of_lt_of_eq (by omega) N128.symm⟩, rfl⟩
  refine ⟨t, (flush0_4 t).mpr (by omega), ?_⟩
  rw [mem_blk4]
  obtain ⟨-, -, -, -, ⟨h0, h1, h2⟩⟩ := idx_facts t
  intro a
  match a with
  | ⟨0, _⟩ => show win0_4.index t 0 * 1 ≤ (i 0).val ∧ (i 0).val < win0_4.index t 0 * 1 + 1; rw [h0]; omega
  | ⟨1, _⟩ => show win0_4.index t 1 * 1 ≤ (i 1).val ∧ (i 1).val < win0_4.index t 1 * 1 + 1; rw [h1]; omega
  | ⟨2, _⟩ => show win0_4.index t 2 * 8192 ≤ (i 2).val ∧ (i 2).val < win0_4.index t 2 * 8192 + 8192; rw [h2]; omega

/-- The second result array after the run. -/
theorem final4 (c : Dev nD) : (dats mI 0 c).arrAt 4 cfg0.N = colMins mI c :=
  (dats mI 0 c).arrAt_eq_of_cover 4 (colMins mI c) (flushed4_eq mI c) cover4

end Cert.KernelIdeal.Chamfer

end
-- ==== Proof.Loss.lean ====
/-
  The tail both programs end with, and the idealized kernel's run with its result named.
  After the two minima are known both programs do the same thing: a softmax of the weights along the points of the
  first cloud, the softmax-weighted sum of the row minima, the mean of the column minima (a sum divided by the
  word 8192.0), their sum, and the mean over the two batches (a sum divided by the word 2.0). That tail is one
  definition, never opened. The kernel's result is the tail of the weights as launched and of the two result
  arrays of the region with their unit axis dropped.
-/
import proofs.«136996_j29927332118898_1_alg».proof.Proof.Arrays
import proofs.«136996_j29927332118898_1_alg».proof.Proof.LibColumnForms
import Idealize.ShloMosaic.Lib.StableHlo.Run
import Idealize.ShloMosaic.Lib.ValueLayout

set_option maxRecDepth 16384

noncomputable section

namespace Cert.KernelIdeal.Chamfer

open Idealize.ShloMosaic Idealize.ShloMosaic.TcCoe Idealize.ShloMosaic.ValueIdx Idealize.SL.Sem
open Idealize.ShloMosaic.Pipeline (Dat)
open Cert.KernelIdeal Cert.KernelIdeal.Gen Cert.Chamfer Cert.ColumnForms

/-- `exp (w − max w)` along the points of each batch (the maximum taken from the word of −∞, twice, as printed). -/
def expShift (w : FVec Ideal S2x16384 .f32) : FVec Ideal S2x16384 .f32 :=
  Host.exp (F := Ideal) (subf w (broadcastInDim S2x16384 ![0, 1] bcast_S2x1_S2x16384_0_1
    (broadcastInDim S2x1 ![0] bcast_S2_S2x1_0
      (maximumf (broadcastInDim S2 ![] bcast_S_S2 (constant (F := Ideal) S_ .f32 0xFF800000#32))
        (Host.reduce (FloatOps.maximumf (F := Ideal)) w (constant (F := Ideal) S_ .f32 0xFF800000#32) reducesTo_S2x16384_S2_d1 h_S_)))))

/-- The softmax of the weights along the points of each batch. -/
def softmaxW (w : FVec Ideal S2x16384 .f32) : FVec Ideal S2x16384 .f32 :=
  Host.divf (F := Ideal) (expShift w) (broadcastInDim S2x16384 ![0, 1] bcast_S2x1_S2x16384_0_1
    (broadcastInDim S2x1 ![0] bcast_S2_S2x1_0
      (Host.reduceAdd (F := Ideal) (expShift w) (constant (F := Ideal) S_ .f32 0x00000000#32) reducesTo_S2x16384_S2_d1 h_S_)))

/-- The loss from the weights `w`, the row minima `r1` and the column minima `r2`. -/
def loss (w r1 : FVec Ideal S2x16384 .f32) (r2 : FVec Ideal S2x8192 .f32) : FVec Ideal S_ .f32 :=
  Host.divf (F := Ideal)
    (Host.reduceAdd (F := Ideal)
      (addf
        (Host.reduceAdd (F := Ideal) (mulf (softmaxW w) r1) (constant (F := Ideal) S_ .f32 0x00000000#32) reducesTo_S2x16384_S2_d1 h_S_)
        (Host.divf (F := Ideal)
          (Host.reduceAdd (F := Ideal) r2 (constant (F := Ideal) S_ .f32 0x00000000#32) reducesTo_S2x8192_S2_d1 h_S_)
          (broadcastInDim S2 ![] bcast_S_S2 (constant (F := Ideal) S_ .f32 0x46000000#32))))
      (constant (F := Ideal) S_ .f32 0x00000000#32) reducesTo_S2_S_d0 h_S_)
    (constant (F := Ideal) S_ .f32 0x40000000#32)

variable (mI : (ℓ : Loc nD τ sig) → Buf (Elt Ideal) ℓ)

/-- The row minima as the tail takes them: entry (b, n) is the minimum of row `n` of batch `b`'s table. -/
def rowMin2 (c : Dev nD) : FVec Ideal S2x16384 .f32 := fun i => minOver fun p : Fin 8192 => tab mI c (i 0) (i 1) p

/-- The column minima as the tail takes them: entry (b, p) is the minimum of column `p` of batch `b`'s table. -/
def colMin2 (c : Dev nD) : FVec Ideal S2x8192 .f32 := fun i => minOver fun row : Fin 16384 => tab mI c (i 0) row (i 1)

theorem reshape_rowMins (c : Dev nD) :
    shapeCast S2x16384 (rowMins mI c) shapeCasts_S2x1x16384_S2x16384 = rowMin2 mI c := by
  funext i
  obtain ⟨b, n, rfl⟩ : ∃ (b : Fin 2) (n : Fin 16384), i = ix2 b n := ⟨i 0, i 1, eq_ix2 i⟩
  exact shapeCast_a1b_ab_apply (rowMins mI c) _ b n

theorem reshape_colMins (c : Dev nD) :
    shapeCast S2x8192 (colMins mI c) shapeCasts_S2x1x8192_S2x8192 = colMin2 mI c := by
  funext i
  obtain ⟨b, p, rfl⟩ : ∃ (b : Fin 2) (p : Fin 8192), i = ix2 b p := ⟨i 0, i 1, eq_ix2 i⟩
  exact shapeCast_a1b_ab_apply (colMins mI c) _ b p

/-- The weights as launched. -/
abbrev inW (c : Dev nD) : FVec Ideal S2x16384 .f32 := mI ((c : Thread nD τ).loc main_arg2)

/-- THE KERNEL'S RESULT: the host operations after the region, applied to the region's two result arrays and to the
    weights, are the tail of the weights, the row minima and the column minima. -/
theorem result_eq (c : Dev nD) :
    Pipeline.afterTail₀ cfgs (dats mI) 0 (V0 mI) [hostOps1] c main_v24
      = loss (inW mI c) (rowMin2 mI c) (colMin2 mI c) := by
  unfold Pipeline.afterTail₀
  have h3 : Pipeline.withArrays (cfgs 0).spec c (V0 mI c) (fun w => (dats mI 0 c).arrAt w (cfgs 0).N) (Proc.devRef .tc main_v3_0) = rowMins mI c :=
    (Pipeline.withArrays_arr spec0 launch0.win.arr_inj c _ _ 3).trans (final3 mI c)
  have h4 : Pipeline.withArrays (cfgs 0).spec c (V0 mI c) (fun w => (dats mI 0 c).arrAt w (cfgs 0).N) (Proc.devRef .tc main_v3_1) = colMins mI c :=
    (Pipeline.withArrays_arr spec0 launch0.win.arr_inj c _ _ 4).trans (final4 mI c)
  have hw : Pipeline.withArrays (cfgs 0).spec c (V0 mI c) (fun w => (dats mI 0 c).arrAt w (cfgs 0).N) (Proc.devRef .tc main_arg2) = mI ((c : Thread nD τ).loc main_arg2) :=
    (Pipeline.withArrays_of_ne _ c (V0 mI c) _ main_arg2 (by exact (by decide : ∀ w, Pipeline.arrRef spec0 w ≠ main_arg2))).trans (V_main_arg2 mI c)
  generalize Pipeline.withArrays (cfgs 0).spec c (V0 mI c) (fun w => (dats mI 0 c).arrAt w (cfgs 0).N) = W at h3 h4 hw ⊢
  show StableHlo.after hostOps1 W (Proc.devRef .tc main_v24) = _
  after_results
  rw [h3, h4, hw, ← reshape_rowMins, ← reshape_colMins]
  rfl

/-- THE KERNEL'S RUN, with its result named: every weakly fair execution of the idealized kernel terminates with the
    result at the tail of the weights and the two arrays of minima, the arguments unchanged. -/
theorem run (ρ : Dev nD → PrngReg) :
    θ_run defs (onTc (τ := τ) (main (F := Ideal))) ⟨mI, fun _ => 0, ρ⟩ fun r => ∀ c : Dev nD,
      r.2.mem ((c.tc : Thread nD τ).loc main_v24) = loss (inW mI c) (rowMin2 mI c) (colMin2 mI c)
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2) :=
  (θ_run defs _ _).mono (fun _ h c =>
    ⟨((h c).2 main_v24 (Pipeline.mem_restRefs_of main_v24 (by decide) (by decide))).trans (result_eq mI c),
      ((h c).1 0).trans (((dats mI 0 c).arrAt_in 0 rfl _).trans ((A_eq mI c 0).trans (V_main_arg0 mI c))),
      ((h c).1 1).trans (((dats mI 0 c).arrAt_in 1 rfl _).trans ((A_eq mI c 1).trans (V_main_arg1 mI c))),
      ((h c).2 main_arg2 (Pipeline.mem_restRefs_of main_arg2 (by decide) (by decide))).trans (W_main_arg2 mI (dats mI) c)⟩)
    (run_main mI ρ)

end Cert.KernelIdeal.Chamfer

end
-- ==== Proof.RefSide.lean ====
/-
  The reference's two minima read at an index, at the ideal instance: the table of expanded squared distances
  between the points of the first cloud and the points of the second, its minimum along each row and along each column.
-/
import proofs.«136996_j29927332118898_1_alg».proof.Proof.Gen.ReferenceIdeal.Read
import proofs.«136996_j29927332118898_1_alg».proof.Proof.Gen.ReferenceIdeal.Run
import proofs.«136996_j29927332118898_1_alg».proof.Proof.Distance
import Idealize.ShloMosaic.Lib.ValueIdx
import Idealize.ShloMosaic.PureOps.Ideal.Laws
import Idealize.ShloMosaic.PureOps.Reduce

noncomputable section

namespace Cert.ReferenceIdeal.Chamfer

open Idealize.ShloMosaic Idealize.ShloMosaic.ValueIdx Cert.ReferenceIdeal Cert.ReferenceIdeal.Gen Cert.ReferenceIdeal.Read Cert.Chamfer

variable (x0 : (⟨S2x16384x3, .f32⟩ : BufTy).Contents (Elt Ideal)) (x1 : (⟨S2x8192x3, .f32⟩ : BufTy).Contents (Elt Ideal))

/-- The first squared norm is read at point n of batch b, whatever the column. -/
theorem idx_sq1 (b : Fin 2) (n : Fin 16384) (c : Fin 8192) (k : Fin 3) :
    idx_main_v12 (idx_main_v16 (idx_main_v18 (ix3 b n c))) k = ix3 b n k :=
  funext fun a => Fin.ext (by match a with | ⟨0, _⟩ => rfl | ⟨1, _⟩ => rfl | ⟨2, _⟩ => rfl)

/-- The second squared norm is read at point c of batch b, whatever the row. -/
theorem idx_sq2 (b : Fin 2) (n : Fin 16384) (c : Fin 8192) (k : Fin 3) :
    idx_main_v14 (idx_main_v17 (idx_main_v19 (ix3 b n c))) k = ix3 b c k :=
  funext fun a => Fin.ext (by match a with | ⟨0, _⟩ => rfl | ⟨1, _⟩ => rfl | ⟨2, _⟩ => rfl)

/-- The product's left factor is coordinate k of point n of batch b. -/
theorem idx_dotl (b : Fin 2) (n : Fin 16384) (c : Fin 8192) (k : Fin 3) :
    lidx_main_v15 (ix3 b n c) k = ix3 b n k :=
  funext fun a => Fin.ext (by match a with | ⟨0, _⟩ => rfl | ⟨1, _⟩ => rfl | ⟨2, _⟩ => rfl)

/-- The product's right factor is coordinate k of point c of batch b. -/
theorem idx_dotr (b : Fin 2) (n : Fin 16384) (c : Fin 8192) (k : Fin 3) :
    ridx_main_v15 (ix3 b n c) k = ix3 b c k :=
  funext fun a => Fin.ext (by match a with | ⟨0, _⟩ => rfl | ⟨1, _⟩ => rfl | ⟨2, _⟩ => rfl)

/-- Entry (b, n, c) of the reference's table is the expanded squared distance of point n and point c of batch b. -/
theorem table_apply (b : Fin 2) (n : Fin 16384) (c : Fin 8192) :
    val_main_v23 (F := Ideal) x0 x1 (ix3 b n c) = dist (pt x0 b n) (pt x1 b c) := by
  rw [val_main_v23_apply, val_main_v20_apply, val_main_v18_apply, val_main_v16_apply, val_main_v12_apply,
    val_main_v19_apply, val_main_v17_apply, val_main_v14_apply, val_main_v22_apply, val_main_v21_apply,
    val_main_v15_apply]
  simp only [val_main_v11_apply, val_main_v13_apply, val_main_cst_2_apply, val_main_cst_3_apply, val_main_cst_4_apply,
    idx_sq1, idx_sq2, idx_dotl, idx_dotr, Ideal.subf_def, Ideal.addf_def, Ideal.mulf_def, Ideal.ofBits_def,
    Ideal.ofBits_zero_f32, zero_add]
  rfl

/-- Column c inserted into the row index (b, n) is the table index (b, n, c). -/
theorem lift_row (h : S2x16384x8192.Reduces [2] S2x16384) (b : Fin 2) (n : Fin 16384) (c : Fin 8192) :
    h.lift (ix2 b n) c = ix3 b n c :=
  funext fun a => Fin.ext (by match a with | ⟨0, _⟩ => rfl | ⟨1, _⟩ => rfl | ⟨2, _⟩ => rfl)

/-- Row n inserted into the column index (b, c) is the table index (b, n, c). -/
theorem lift_col (h : S2x16384x8192.Reduces [1] S2x8192) (b : Fin 2) (c : Fin 8192) (n : Fin 16384) :
    h.lift (ix2 b c) n = ix3 b n c :=
  funext fun a => Fin.ext (by match a with | ⟨0, _⟩ => rfl | ⟨1, _⟩ => rfl | ⟨2, _⟩ => rfl)

/-- The minimum along a row of the table. -/
theorem rowmin_apply (b : Fin 2) (n : Fin 16384) :
    val_main_v24 (F := Ideal) x0 x1 (ix2 b n) = minOver fun c : Fin 8192 => dist (pt x0 b n) (pt x1 b c) := by
  have h : S2x16384x8192.Reduces [2] S2x16384 := by decide
  have e := Host.reduce_eq_fold_single (a := (2 : Fin S2x16384x8192.rank)) (FloatOps.minimumf (F := Ideal) (φ := .f32))
    (val_main_v23 (F := Ideal) x0 x1) (val_main_cst_5 (F := Ideal))
    Facts₀.reducesTo_S2x16384x8192_S2x16384_d2 h Facts₀.h_S_ (ix2 b n)
  unfold val_main_v24
  refine e.trans ?_
  refine Finset.fold_congr fun c _ => ?_
  exact (congrArg (val_main_v23 (F := Ideal) x0 x1) (lift_row h b n c)).trans (table_apply x0 x1 b n c)

/-- The minimum along a column of the table. -/
theorem colmin_apply (b : Fin 2) (c : Fin 8192) :
    val_main_v25 (F := Ideal) x0 x1 (ix2 b c) = minOver fun n : Fin 16384 => dist (pt x0 b n) (pt x1 b c) := by
  have h : S2x16384x8192.Reduces [1] S2x8192 := by decide
  have e := Host.reduce_eq_fold_single (a := (1 : Fin S2x16384x8192.rank)) (FloatOps.minimumf (F := Ideal) (φ := .f32))
    (val_main_v23 (F := Ideal) x0 x1) (val_main_cst_6 (F := Ideal))
    Facts₀.reducesTo_S2x16384x8192_S2x8192_d1 h Facts₀.h_S_ (ix2 b c)
  unfold val_main_v25
  refine e.trans ?_
  refine Finset.fold_congr fun n _ => ?_
  exact (congrArg (val_main_v23 (F := Ideal) x0 x1) (lift_col h b c n)).trans (table_apply x0 x1 b n c)

end Cert.ReferenceIdeal.Chamfer

end
-- ==== Proof.lean ====
/-
  The certificate: a chamfer loss computed by a tiled kernel against its plain reference, over the extended reals.

  Both programs compute, per batch `b`, the table `dist (X n) (Y p) = (‖X n‖² + ‖Y p‖²) − 2·⟨X n, Y p⟩` of expanded
  squared distances between the 16384 points of the first cloud and the 8192 points of the second, its row minima
  and its column minima, and then the same tail (a softmax-weighted sum of the row minima plus the mean of the
  column minima, averaged over the two batches). The reference builds the whole table and reduces it twice. The
  kernel visits the table 256 rows at a time: each tile's row minima are final, and its column minima are folded
  into a running minimum that starts from the word of +∞ at each batch's first tile; a minimum is determined by
  its lower bounds, so the running minimum after the last tile is the column minimum taken at once. A change of
  float format is the identity at the ideal instance, the kernel's matrix product and lane sums are the same finite
  sums as the reference's, and nothing here needs the inputs to be finite: only that `+` and `min` are
  associative and commutative, and that both sides print the same words.

  The three frames are the generated ones (the reference's is its generated run with the result dropped); the
  idealization rewrote nothing, so `preserves` is trivial; `algebraic` pairs the kernel's run, read through the
  modules of this directory, with the reference's generated run.
-/
import proofs.«136996_j29927332118898_1_alg».proof.Defs
import proofs.«136996_j29927332118898_1_alg».proof.Proof.Gen.Kernel
import proofs.«136996_j29927332118898_1_alg».proof.Proof.Gen.Kernel.Frame
import proofs.«136996_j29927332118898_1_alg».proof.Proof.Gen.KernelIdeal
import proofs.«136996_j29927332118898_1_alg».proof.Proof.Gen.KernelIdeal.Frame
import proofs.«136996_j29927332118898_1_alg».proof.Proof.Gen.ReferenceIdeal
import proofs.«136996_j29927332118898_1_alg».proof.Proof.Gen.ReferenceIdeal.Run
import proofs.«136996_j29927332118898_1_alg».proof.Proof.Gen.ReferenceIdeal.Read
import proofs.«136996_j29927332118898_1_alg».proof.Proof.Gen.Pre_finite_inputs
import proofs.«136996_j29927332118898_1_alg».proof.Proof.Loss
import proofs.«136996_j29927332118898_1_alg».proof.Proof.RefSide
import Idealize.ShloMosaic.Adequacy
import Idealize.ShloMosaic.Init

set_option maxRecDepth 16384

noncomputable section

open Idealize.ShloMosaic Idealize.ShloMosaic.TcCoe Idealize.ShloMosaic.ValueIdx Idealize.SL.Sem

/-! ## The reference's result in the kernel's words -/

namespace Cert.ReferenceIdeal.Chamfer

open Cert.ReferenceIdeal Cert.ReferenceIdeal.Gen Cert.ReferenceIdeal.Read Cert.Chamfer

variable (x0 : (⟨S2x16384x3, .f32⟩ : BufTy).Contents (Elt Ideal)) (x1 : (⟨S2x8192x3, .f32⟩ : BufTy).Contents (Elt Ideal))
  (x2 : (⟨S2x16384, .f32⟩ : BufTy).Contents (Elt Ideal))

/-- The reference's result is the tail of the weights and of its two minima: the same operations, in the same order. -/
theorem result_eq :
    val_main_v33 (F := Ideal) x0 x1 x2
      = Cert.KernelIdeal.Chamfer.loss x2 (val_main_v24 (F := Ideal) x0 x1) (val_main_v25 (F := Ideal) x0 x1) := rfl

/-- Its row minima, as one function of the index. -/
theorem rowmin_eq : val_main_v24 (F := Ideal) x0 x1
    = fun i => minOver fun p : Fin 8192 => Cert.Chamfer.dist (pt x0 (i 0) (i 1)) (pt x1 (i 0) p) := by
  funext i
  obtain ⟨b, n, rfl⟩ : ∃ (b : Fin 2) (n : Fin 16384), i = ix2 b n := ⟨i 0, i 1, eq_ix2 i⟩
  exact rowmin_apply x0 x1 b n

/-- Its column minima, as one function of the index. -/
theorem colmin_eq : val_main_v25 (F := Ideal) x0 x1
    = fun i => minOver fun n : Fin 16384 => Cert.Chamfer.dist (pt x0 (i 0) n) (pt x1 (i 0) (i 1)) := by
  funext i
  obtain ⟨b, p, rfl⟩ : ∃ (b : Fin 2) (p : Fin 8192), i = ix2 b p := ⟨i 0, i 1, eq_ix2 i⟩
  exact colmin_apply x0 x1 b p

end Cert.ReferenceIdeal.Chamfer

/-! ## The claims -/

namespace Cert.Proof

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance the kernel's result is the tail of the weights, the row minima and the column minima of
    the table of the two clouds as launched; so is the reference's, of arguments that agree. -/
theorem algebraic : Cert.algebraic_KernelIdeal_ReferenceIdeal := by
  intro m ρ m' ρ' _ hagree
  refine ⟨fun c => Cert.KernelIdeal.Chamfer.loss (Cert.KernelIdeal.Chamfer.inW m c)
    (Cert.KernelIdeal.Chamfer.rowMin2 m c) (Cert.KernelIdeal.Chamfer.colMin2 m c), Cert.KernelIdeal.Chamfer.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v33_eq _ _ _).trans ?_
  rw [Cert.ReferenceIdeal.Chamfer.result_eq, Cert.ReferenceIdeal.Chamfer.rowmin_eq, Cert.ReferenceIdeal.Chamfer.colmin_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
